-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x2048x64 : Shape := ⟨4, ![8, 32, 2048, 64]⟩
abbrev S32x64 : Shape := ⟨2, ![32, 64]⟩
abbrev S32 : Shape := ⟨1, ![32]⟩
abbrev S_ : Shape := ⟨0, ![]⟩

class Facts : Prop where
  bcast_S_S8x32x2048x64 : S_.BroadcastsInDim S8x32x2048x64 (![] : Fin 0 → Fin S8x32x2048x64.rank)
  reducesTo_S8x32x2048x64_S_d0_1_2_3 : S8x32x2048x64.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : FVec F S8x32x2048x64 .f32) (main_arg1 : FVec F S32x64 .f32) (main_arg2 : FVec F S32 .f32) (main_arg3 : FVec F S32x64 .f32) : IVec S_ 1 :=
  let main_v0 : FVec F S8x32x2048x64 .f32 := Host.absf main_arg0
  let main_cst : FVec F S_ .f32 := constant S_ .f32 0x7F800000#32
  let main_v1 : FVec F S8x32x2048x64 .f32 := broadcastInDim S8x32x2048x64 ![] bcast_S_S8x32x2048x64 main_cst
  let main_v2 : IVec S8x32x2048x64 1 := cmpf .olt main_v0 main_v1
  let main_c : IVec S_ 1 := constantI S_ 1 1#1
  let main_v3 : IVec S_ 1 := (fun x v => Host.reduce IntOp.andi x v reducesTo_S8x32x2048x64_S_d0_1_2_3 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Kernel.lean ====
abbrev S8x32x2048x64 : Shape := ⟨4, ![8, 32, 2048, 64]⟩
abbrev S32x64 : Shape := ⟨2, ![32, 64]⟩
abbrev S32 : Shape := ⟨1, ![32]⟩
abbrev S256x2048x64 : Shape := ⟨3, ![256, 2048, 64]⟩
abbrev S256x32x64 : Shape := ⟨3, ![256, 32, 64]⟩
abbrev S64x256x64 : Shape := ⟨3, ![64, 256, 64]⟩
abbrev S64x32x64 : Shape := ⟨3, ![64, 32, 64]⟩
abbrev S64x32 : Shape := ⟨2, ![64, 32]⟩
abbrev S16384x64 : Shape := ⟨2, ![16384, 64]⟩
abbrev S16384x32 : Shape := ⟨2, ![16384, 32]⟩
abbrev S1x32 : Shape := ⟨2, ![1, 32]⟩
abbrev S64x256x32 : Shape := ⟨3, ![64, 256, 32]⟩
abbrev S64x256 : Shape := ⟨2, ![64, 256]⟩
abbrev S64x256x1 : Shape := ⟨3, ![64, 256, 1]⟩
abbrev S64x32x1 : Shape := ⟨3, ![64, 32, 1]⟩
abbrev S1x32x64 : Shape := ⟨3, ![1, 32, 64]⟩
abbrev S8x32x32x64 : Shape := ⟨4, ![8, 32, 32, 64]⟩

abbrev nBuf : Space → Nat
  | .hbm => 7
  | .vmem => 9
  | .smem => 0
  | _ => 0

abbrev bufTy : (tb : Table) → Fin (tcTables nBuf tb) → BufTy
  | .hbm, ⟨0, _⟩ => ⟨S8x32x2048x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S256x2048x64, .f32⟩
  | .hbm, ⟨5, _⟩ => ⟨S256x32x64, .f32⟩
  | .hbm, ⟨6, _⟩ => ⟨S8x32x32x64, .f32⟩
  | .local _ .vmem, ⟨0, _⟩ => ⟨S64x256x64, .f32⟩
  | .local _ .vmem, ⟨1, _⟩ => ⟨S64x256x64, .f32⟩
  | .local _ .vmem, ⟨2, _⟩ => ⟨S32x64, .f32⟩
  | .local _ .vmem, ⟨3, _⟩ => ⟨S32, .f32⟩
  | .local _ .vmem, ⟨4, _⟩ => ⟨S32x64, .f32⟩
  | .local _ .vmem, ⟨5, _⟩ => ⟨S64x32x64, .f32⟩
  | .local _ .vmem, ⟨6, _⟩ => ⟨S64x32x64, .f32⟩
  | .local _ .vmem, ⟨7, _⟩ => ⟨S64x32x64, .f32⟩
  | .local _ .vmem, ⟨8, _⟩ => ⟨S64x32, .f32⟩
  | _, _ => ⟨S8x32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_21 : BitVec 32 := 0#32
  let v43 : BitVec 1 := Scalar.cmpi .ne v42 c0_i32_21
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x32x2048x64_S256x2048x64 : S8x32x2048x64.ShapeCasts S256x2048x64
  inb_S64x32x64_S64x32x64_0_0_0 : ∀ a, (![0, 0, 0] : Fin 3 → Nat) a + S64x32x64.size a ≤ S64x32x64.size a
  h_S64x32x64 : 0 < S64x32x64.numel
  shapeCasts_S64x32x64_S64x32x64 : S64x32x64.ShapeCasts S64x32x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x256x64_S64x256x64_0_0_0 : ∀ a, (![0, 0, 0] : Fin 3 → Nat) a + S64x256x64.size a ≤ S64x256x64.size a
  h_S64x256x64 : 0 < S64x256x64.numel
  shapeCasts_S64x256x64_S64x256x64 : S64x256x64.ShapeCasts S64x256x64
  shapeCasts_S64x256x64_S16384x64 : S64x256x64.ShapeCasts S16384x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  shapeCasts_S16384x32_S64x256x32 : S16384x32.ShapeCasts S64x256x32
  reduces_S64x256x32_S64x256 : S64x256x32.Reduces [2] S64x256
  shapeCasts_S64x256_S64x256x1 : S64x256.ShapeCasts S64x256x1
  broadcasts_S64x256x1_S64x256x32 : S64x256x1.Broadcasts S64x256x32
  reduces_S64x256x32_S64x32 : S64x256x32.Reduces [1] S64x32
  shapeCasts_S64x32_S64x32x1 : S64x32.ShapeCasts S64x32x1
  shapeCasts_S32x64_S1x32x64 : S32x64.ShapeCasts S1x32x64
  broadcasts_S64x32x1_S64x32x64 : S64x32x1.Broadcasts S64x32x64
  broadcasts_S1x32x64_S64x32x64 : S1x32x64.Broadcasts S64x32x64
  shapeCasts_S256x32x64_S8x32x32x64 : S256x32x64.ShapeCasts S8x32x32x64
  dot_S16384x64_S64x32_S16384x32_1_0_0_1_n_n_wf : DotDims.WF S16384x64 S64x32 S16384x32 [1] [0] [0] [1] [] []
  dot_S64x256x32_S64x256x64_S64x32x64_1_1_2_2_0_0_wf : DotDims.WF S64x256x32 S64x256x64 S64x32x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x64.size a ≤ S256x2048x64.size a
  hwx0_0 : ∀ i : grid0.Coords, EltTy.bits .f32 = 32 ∨ (Rect.block (s := S256x2048x64) S64x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x32x64.size a ≤ S256x32x64.size a
  hwx0_4 : ∀ i : grid0.Coords, EltTy.bits .f32 = 32 ∨ (Rect.block (s := S256x32x64) S64x32x64.size (cc0_transform_4 i) (hinb0_4 i)).WholeWords (EltTy.packing .f32)

variable [Facts₀]

def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S64x256x32_S64x256x64_S64x32x64_1_1_2_2_0_0 : DotDims S64x256x32 S64x256x64 S64x32x64 where
  lhsContracting := [1]
  rhsContracting := [1]
  lhsNonContracting := [2]
  rhsNonContracting := [2]
  lhsBatch := [0]
  rhsBatch := [0]
  wf := dot_S64x256x32_S64x256x64_S64x32x64_1_1_2_2_0_0_wf

abbrev win0_0 : Pipeline.Window sig grid0 :=
  Pipeline.Window.ofSpec (Memref.whole main_v0) S64x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x32x2048x64 : Shape := ⟨4, ![8, 32, 2048, 64]⟩
abbrev S32x64 : Shape := ⟨2, ![32, 64]⟩
abbrev S32 : Shape := ⟨1, ![32]⟩
abbrev S256x2048x64 : Shape := ⟨3, ![256, 2048, 64]⟩
abbrev S256x2048x32 : Shape := ⟨3, ![256, 2048, 32]⟩
abbrev S1x1x32 : Shape := ⟨3, ![1, 1, 32]⟩
abbrev S_ : Shape := ⟨0, ![]⟩
abbrev S256x2048 : Shape := ⟨2, ![256, 2048]⟩
abbrev S256x2048x1 : Shape := ⟨3, ![256, 2048, 1]⟩
abbrev S256x32x64 : Shape := ⟨3, ![256, 32, 64]⟩
abbrev S256x32 : Shape := ⟨2, ![256, 32]⟩
abbrev S256x32x1 : Shape := ⟨3, ![256, 32, 1]⟩
abbrev S1x32x64 : Shape := ⟨3, ![1, 32, 64]⟩
abbrev S8x32x32x64 : Shape := ⟨4, ![8, 32, 32, 64]⟩

abbrev nBuf : Space → Nat
  | .hbm => 36
  | .vmem => 0
  | .smem => 0
  | _ => 0

abbrev bufTy : (tb : Table) → Fin (tcTables nBuf tb) → BufTy
  | .hbm, ⟨0, _⟩ => ⟨S8x32x2048x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S256x2048x64, .f32⟩
  | .hbm, ⟨5, _⟩ => ⟨S256x2048x32, .f32⟩
  | .hbm, ⟨6, _⟩ => ⟨S1x1x32, .f32⟩
  | .hbm, ⟨7, _⟩ => ⟨S256x2048x32, .f32⟩
  | .hbm, ⟨8, _⟩ => ⟨S256x2048x32, .f32⟩
  | .hbm, ⟨9, _⟩ => ⟨S_, .f32⟩
  | .hbm, ⟨10, _⟩ => ⟨S256x2048x32, .f32⟩
  | .hbm, ⟨11, _⟩ => ⟨S256x2048x32, .f32⟩
  | .hbm, ⟨12, _⟩ => ⟨S_, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048x1, .f32⟩
  | .hbm, ⟨18, _⟩ => ⟨S256x2048x32, .f32⟩
  | .hbm, ⟨19, _⟩ => ⟨S256x2048x32, .f32⟩
  | .hbm, ⟨20, _⟩ => ⟨S256x2048x32, .f32⟩
  | .hbm, ⟨21, _⟩ => ⟨S_, .f32⟩
  | .hbm, ⟨22, _⟩ => ⟨S256x2048, .f32⟩
  | .hbm, ⟨23, _⟩ => ⟨S256x2048x1, .f32⟩
  | .hbm, ⟨24, _⟩ => ⟨S256x2048x32, .f32⟩
  | .hbm, ⟨25, _⟩ => ⟨S256x2048x32, .f32⟩
  | .hbm, ⟨26, _⟩ => ⟨S256x32x64, .f32⟩
  | .hbm, ⟨27, _⟩ => ⟨S_, .f32⟩
  | .hbm, ⟨28, _⟩ => ⟨S256x32, .f32⟩
  | .hbm, ⟨29, _⟩ => ⟨S256x32x1, .f32⟩
  | .hbm, ⟨30, _⟩ => ⟨S1x32x64, .f32⟩
  | .hbm, ⟨31, _⟩ => ⟨S256x32x64, .f32⟩
  | .hbm, ⟨32, _⟩ => ⟨S256x32x64, .f32⟩
  | .hbm, ⟨33, _⟩ => ⟨S256x32x64, .f32⟩
  | .hbm, ⟨34, _⟩ => ⟨S256x32x64, .f32⟩
  | .hbm, ⟨35, _⟩ => ⟨S8x32x32x64, .f32⟩
  | _, _ => ⟨S8x32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S8x32x2048x64_S256x2048x64 : S8x32x2048x64.ShapeCasts S256x2048x64
  bcast_S32_S1x1x32_2 : S32.BroadcastsInDim S1x1x32 (![2] : Fin 1 → Fin S1x1x32.rank)
  bcast_S1x1x32_S256x2048x32_0_1_2 : S1x1x32.BroadcastsInDim S256x2048x32 (![0, 1, 2] : Fin 3 → Fin S256x2048x32.rank)
  bcast_S_S256x2048x32 : S_.BroadcastsInDim S256x2048x32 (![] : Fin 0 → Fin S256x2048x32.rank)
  reducesTo_S256x2048x32_S256x2048_d2 : S256x2048x32.ReducesTo [2] S256x2048
  h_S_ : 0 < S_.numel
  bcast_S_S256x2048 : S_.BroadcastsInDim S256x2048 (![] : Fin 0 → Fin S256x2048.rank)
  bcast_S256x2048_S256x2048x1_0_1 : S256x2048.BroadcastsInDim S256x2048x1 (![0, 1] : Fin 2 → Fin S256x2048x1.rank)
  bcast_S256x2048x1_S256x2048x32_0_1_2 : S256x2048x1.BroadcastsInDim S256x2048x32 (![0, 1, 2] : Fin 3 → Fin S256x2048x32.rank)
  reducesTo_S256x2048x32_S256x32_d1 : S256x2048x32.ReducesTo [1] S256x32
  bcast_S256x32_S256x32x1_0_1 : S256x32.BroadcastsInDim S256x32x1 (![0, 1] : Fin 2 → Fin S256x32x1.rank)
  bcast_S32x64_S1x32x64_1_2 : S32x64.BroadcastsInDim S1x32x64 (![1, 2] : Fin 2 → Fin S1x32x64.rank)
  bcast_S256x32x1_S256x32x64_0_1_2 : S256x32x1.BroadcastsInDim S256x32x64 (![0, 1, 2] : Fin 3 → Fin S256x32x64.rank)
  bcast_S1x32x64_S256x32x64_0_1_2 : S1x32x64.BroadcastsInDim S256x32x64 (![0, 1, 2] : Fin 3 → Fin S256x32x64.rank)
  shapeCasts_S256x32x64_S8x32x32x64 : S256x32x64.ShapeCasts S8x32x32x64
  dot_S256x2048x64_S32x64_S256x2048x32_2_1_01_0_n_n_wf : DotDims.WF S256x2048x64 S32x64 S256x2048x32 [2] [1] [0, 1] [0] [] []
  dot_S256x2048x32_S256x2048x64_S256x32x64_1_1_2_2_0_0_wf : DotDims.WF S256x2048x32 S256x2048x64 S256x32x64 [1] [1] [2] [2] [0] [0]

variable [Facts₀]

def dot_S256x2048x64_S32x64_S256x2048x32_2_1_01_0_n_n : DotDims S256x2048x64 S32x64 S256x2048x32 where
  lhsContracting := [2]
  rhsContracting := [1]
  lhsNonContracting := [0, 1]
  rhsNonContracting := [0]
  lhsBatch := []
  rhsBatch := []
  wf := dot_S256x2048x64_S32x64_S256x2048x32_2_1_01_0_n_n_wf
def dot_S256x2048x32_S256x2048x64_S256x32x64_1_1_2_2_0_0 : DotDims S256x2048x32 S256x2048x64 S256x32x64 where
  lhsContracting := [1]
  rhsContracting := [1]
  lhsNonContracting := [2]
  rhsNonContracting := [2]
  lhsBatch := [0]
  rhsBatch := [0]
  wf := dot_S256x2048x32_S256x2048x64_S256x32x64_1_1_2_2_0_0_wf

class Facts : Prop extends Facts₀ where

variable [Facts]
-- ==== Proof.Spec.lean ====
/-
  What both programs compute, stated once over the extended reals, free of any tiling.

  For a row `x ∈ ℝ̄⁶⁴` of the sequence, the soft assignment to cluster `k` is the softmax over the 32 clusters of the
  logits `⟨x, W k⟩ + b k`: each logit less the row's maximum (the maximum taken from −∞, as both programs take it),
  exponentiated, and divided by the sum of the 32 exponentials. The descriptor of sequence `m` at cluster `k` and
  channel `c` is the assignment-weighted sum of the rows' channel `c` over the 2048 positions, less the total
  assignment mass of cluster `k` times the centroid's channel `c`.

  Nothing here is evaluated: −∞ stays the float literal both programs print, and the softmax is one function of a row,
  so that a tile's rows and the whole array's rows meet in it by congruence.
-/
import Idealize.ShloMosaic.PureOps.Ideal
import Idealize.ShloMosaic.Lib.ValueIdx

noncomputable section

open scoped BigOperators

namespace Cert.Vlad

open Idealize.ShloMosaic Idealize.ShloMosaic.ValueIdx

/-- −∞, as the f32 literal `0xFF800000` both programs start a row's maximum from. -/
abbrev negInf : EReal := Ideal.ofBits .f32 0xFF800000#32

/-- The logit of a row against cluster `k`: the inner product with `W`'s row `k`, plus the bias. -/
def logit (W : (⟨2, ![32, 64]⟩ : Shape).Idx → EReal) (b : (⟨1, ![32]⟩ : Shape).Idx → EReal) (row : Fin 64 → EReal)
    (k : Fin 32) : EReal :=
  (∑ c : Fin 64, row c * W (ix2 k c)) + b (ix1 k)

/-- A row of logits' maximum, folded from −∞ and then compared with −∞ once more (both programs do both). -/
def rowMax (l : Fin 32 → EReal) : EReal := max negInf (Finset.univ.fold max negInf l)

/-- The softmax of a row of 32 logits at `k`. -/
def soft (l : Fin 32 → EReal) (k : Fin 32) : EReal :=
  Ideal.div (Ideal.exp (l k - rowMax l)) (∑ k' : Fin 32, Ideal.exp (l k' - rowMax l))

/-- The soft assignment of a row to cluster `k`. -/
def assign (W : (⟨2, ![32, 64]⟩ : Shape).Idx → EReal) (b : (⟨1, ![32]⟩ : Shape).Idx → EReal) (row : Fin 64 → EReal)
    (k : Fin 32) : EReal :=
  soft (logit W b row) k

/-- Row `(m, n)` of the sequence array. -/
abbrev rowOf (r : (⟨3, ![256, 2048, 64]⟩ : Shape).Idx → EReal) (m : Fin 256) (n : Fin 2048) : Fin 64 → EReal :=
  fun c => r (ix3 m n c)

/-- The descriptor array: at `(m, k, c)`, `∑ₙ a(m,n,k) · r(m,n,c) − (∑ₙ a(m,n,k)) · cent(k,c)`. -/
def vlad (r : (⟨3, ![256, 2048, 64]⟩ : Shape).Idx → EReal) (W : (⟨2, ![32, 64]⟩ : Shape).Idx → EReal)
    (b : (⟨1, ![32]⟩ : Shape).Idx → EReal) (cent : (⟨2, ![32, 64]⟩ : Shape).Idx → EReal)
    (i : (⟨3, ![256, 32, 64]⟩ : Shape).Idx) : EReal :=
  (∑ n : Fin 2048, assign W b (rowOf r (i 0) n) (i 1) * r (ix3 (i 0) n (i 2)))
    - (∑ n : Fin 2048, assign W b (rowOf r (i 0) n) (i 1)) * cent (ix2 (i 1) (i 2))

/-! ## Where a grid point's tile sits in the arrays

The grid runs over 4 tiles of 64 sequences (slow) by 8 tiles of 256 positions (fast): point number `n` works on
sequences `64·(n / 8) + p` and positions `256·(n % 8) + q`. Total functions of the point NUMBER (reduced into range, which
changes nothing below 32 points), so that statements over them carry no proof of the bound. -/

/-- Sequence `p` of the tile point `n` works on. -/
def rowIx (n : ℕ) (p : Fin 64) : Fin 256 := ⟨(64 * (n / 8) + p.val) % 256, Nat.mod_lt _ (by decide)⟩
/-- Position `q` of the tile point `n` works on. -/
def colIx (n : ℕ) (q : Fin 256) : Fin 2048 := ⟨(256 * (n % 8) + q.val) % 2048, Nat.mod_lt _ (by decide)⟩

theorem rowIx_val {n : ℕ} (h : n < 32) (p : Fin 64) : (rowIx n p).val = 64 * (n / 8) + p.val := by
  have := p.isLt; unfold rowIx; show (64 * (n / 8) + p.val) % 256 = _; omega
theorem colIx_val (n : ℕ) (q : Fin 256) : (colIx n q).val = 256 * (n % 8) + q.val := by
  have := q.isLt; unfold colIx; show (256 * (n % 8) + q.val) % 2048 = _; omega

end Cert.Vlad

end
-- ==== Proof.Reference.lean ====
/- The reference program's result, read index by index. -/
import proofs.«157888_j53979148976680_1_alg».proof.Proof.Gen.ReferenceIdeal.Read
import proofs.«157888_j53979148976680_1_alg».proof.Proof.Spec

/-!
  The reference computes, stage by stage, exactly the shared specification `Cert.Vlad.vlad`:

  * stage 6 at `(m, n, k)` is the logit of row `(m, n)` against cluster `k`, times the literal `1`;
  * stage 9 at `(m, n)` is that row of logits' maximum, folded from −∞ and compared with −∞ once more;
  * stage 13 at `(m, n, k)` is the exponential of the logit less the maximum, stage 14 at `(m, n)` is `0` plus the sum of
    the 32 exponentials, and stage 17 is their quotient: the soft assignment;
  * stages 18 and 19 sum over the 2048 positions, and stages 22 to 25 assemble the descriptor.

  Each stage is read at an index written by its coordinates; the last theorem reads the result at every index.
-/

noncomputable section

open scoped BigOperators

namespace Cert.ReferenceIdeal.RefValue

open Cert.ReferenceIdeal Cert.ReferenceIdeal.Gen Cert.ReferenceIdeal.Read Idealize.ShloMosaic Idealize.ShloMosaic.ValueIdx Cert.Vlad

/-- The f32 literal `0x3F800000` is the extended real `1`. -/
theorem ofBits_one_f32 : Ideal.ofBits .f32 0x3F800000#32 = 1 :=
  IdealRules.sign_bit.ideal_onePat .f32

variable (x0 : (⟨S8x32x2048x64, .f32⟩ : BufTy).Contents (Elt Ideal)) (x1 : (⟨S32x64, .f32⟩ : BufTy).Contents (Elt Ideal))
  (x2 : (⟨S32, .f32⟩ : BufTy).Contents (Elt Ideal)) (x3 : (⟨S32x64, .f32⟩ : BufTy).Contents (Elt Ideal))

/-- The row of 32 logits of position `(m, n)`. -/
abbrev logits (m : Fin 256) (n : Fin 2048) : Fin 32 → EReal :=
  logit x1 x2 (rowOf (val_main_v0 (F := Ideal) x0) m n)

/-! ## The logits -/

/-- Stage 6 at `(m, n, k)`: the inner product of row `(m, n)` with `W`'s row `k`, plus the bias, times `1`. -/
theorem v6_at (m : Fin 256) (n : Fin 2048) (k : Fin 32) :
    val_main_v6 (F := Ideal) x0 x1 x2 (ix3 m n k) = logits x0 x1 x2 m n k := by
  rw [val_main_v6_apply, val_main_v4_apply, val_main_v5_apply, val_main_cst_apply, val_main_v1_apply,
    val_main_v3_apply, val_main_v2_apply]
  have hl : ∀ c : Fin 64, lidx_main_v1 (ix3 m n k) c = ix3 m n c := fun c =>
    funext fun a => Fin.ext (by match a with | ⟨0, _⟩ => rfl | ⟨1, _⟩ => rfl | ⟨2, _⟩ => rfl)
  have hr : ∀ c : Fin 64, ridx_main_v1 (ix3 m n k) c = ix2 k c := fun c =>
    funext fun a => Fin.ext (by match a with | ⟨0, _⟩ => rfl | ⟨1, _⟩ => rfl)
  have hb : idx_main_v2 (idx_main_v3 (ix3 m n k)) = ix1 k :=
    funext fun a => Fin.ext (by match a with | ⟨0, _⟩ => rfl)
  simp only [hl, hr, hb]
  show ((∑ c : Fin 64, _ * _) + _) * Ideal.ofBits .f32 0x3F800000#32 = _
  rw [ofBits_one_f32, mul_one]
  rfl

/-! ## The row maximum -/

/-- Stage 9 at `(m, n)`: the maximum of the row's 32 logits, folded from −∞, compared with −∞ once more. -/
theorem v9_at (m : Fin 256) (n : Fin 2048) :
    val_main_v9 (F := Ideal) x0 x1 x2 (ix2 m n) = rowMax (logits x0 x1 x2 m n) := by
  have h : S256x2048x32.Reduces [2] S256x2048 := by decide
  rw [val_main_v9_apply, val_main_v8_apply, val_main_cst_1_apply]
  unfold val_main_v7
  rw [Host.reduce_eq_fold_single _ _ _ reducesTo_S256x2048x32_S256x2048_d2 h h_S_]
  have hl : ∀ k : Fin 32, h.lift (ix2 m n) k = ix3 m n k := fun k =>
    funext fun a => Fin.ext (by match a with | ⟨0, _⟩ => rfl | ⟨1, _⟩ => rfl | ⟨2, _⟩ => rfl)
  have hf : (val_main_v6 (F := Ideal) x0 x1 x2 ∘ h.lift (ix2 m n)) = logits x0 x1 x2 m n :=
    funext fun k => (congrArg (val_main_v6 (F := Ideal) x0 x1 x2) (hl k)).trans (v6_at x0 x1 x2 m n k)
  rw [hf]
  rfl

/-! ## The soft assignment -/

/-- Stage 13 at `(m, n, k)`: the exponential of the logit less the row's maximum. -/
theorem v13_at (m : Fin 256) (n : Fin 2048) (k : Fin 32) :
    val_main_v13 (F := Ideal) x0 x1 x2 (ix3 m n k)
      = Ideal.exp (logits x0 x1 x2 m n k - rowMax (logits x0 x1 x2 m n)) := by
  rw [val_main_v13_apply, val_main_v12_apply, val_main_v11_apply, val_main_v10_apply]
  have hi : idx_main_v10 (idx_main_v11 (ix3 m n k)) = ix2 m n :=
    funext fun a => Fin.ext (by match a with | ⟨0, _⟩ => rfl | ⟨1, _⟩ => rfl)
  rw [hi, v6_at, v9_at]
  rfl

/-- Stage 14 at `(m, n)`: `0` plus the sum of the row's 32 exponentials. -/
theorem v14_at (m : Fin 256) (n : Fin 2048) :
    val_main_v14 (F := Ideal) x0 x1 x2 (ix2 m n)
      = ∑ k' : Fin 32, Ideal.exp (logits x0 x1 x2 m n k' - rowMax (logits x0 x1 x2 m n)) := by
  rw [val_main_v14_apply, val_main_cst_2_apply]
  show Ideal.ofBits .f32 0x00000000#32 + _ = _
  rw [Ideal.ofBits_zero_f32, zero_add]
  refine Finset.sum_congr rfl fun k' _ => ?_
  have hi : idx_main_v14 (ix2 m n) k' = ix3 m n k' :=
    funext fun a => Fin.ext (by match a with | ⟨0, _⟩ => rfl | ⟨1, _⟩ => rfl | ⟨2, _⟩ => rfl)
  rw [hi, v13_at]

/-- Stage 17 at `(m, n, k)`: the soft assignment of row `(m, n)` to cluster `k`. -/
theorem v17_at (m : Fin 256) (n : Fin 2048) (k : Fin 32) :
    val_main_v17 (F := Ideal) x0 x1 x2 (ix3 m n k)
      = assign x1 x2 (rowOf (val_main_v0 (F := Ideal) x0) m n) k := by
  rw [val_main_v17_apply, val_main_v16_apply, val_main_v15_apply]
  have hi : idx_main_v15 (idx_main_v16 (ix3 m n k)) = ix2 m n :=
    funext fun a => Fin.ext (by match a with | ⟨0, _⟩ => rfl | ⟨1, _⟩ => rfl)
  rw [hi, v13_at, v14_at]
  rfl

/-! ## The descriptor -/

/-- The reference's descriptor array is the specification's, index by index. -/
theorem descriptor_eq :
    val_main_v25 (F := Ideal) x0 x1 x2 x3 = vlad (val_main_v0 (F := Ideal) x0) x1 x2 x3 := by
  funext i
  obtain ⟨m, k, c, rfl⟩ : ∃ m k c, i = ix3 m k c := ⟨_, _, _, eq_ix3 i⟩
  rw [val_main_v25_apply, val_main_v24_apply, val_main_v18_apply, val_main_v22_apply, val_main_v20_apply,
    val_main_v19_apply, val_main_cst_3_apply, val_main_v23_apply, val_main_v21_apply]
  have hl : ∀ n : Fin 2048, lidx_main_v18 (ix3 m k c) n = ix3 m n k := fun n =>
    funext fun a => Fin.ext (by match a with | ⟨0, _⟩ => rfl | ⟨1, _⟩ => rfl | ⟨2, _⟩ => rfl)
  have hr : ∀ n : Fin 2048, ridx_main_v18 (ix3 m k c) n = ix3 m n c := fun n =>
    funext fun a => Fin.ext (by match a with | ⟨0, _⟩ => rfl | ⟨1, _⟩ => rfl | ⟨2, _⟩ => rfl)
  have hs : ∀ n : Fin 2048, idx_main_v19 (idx_main_v20 (idx_main_v22 (ix3 m k c))) n = ix3 m n k := fun n =>
    funext fun a => Fin.ext (by match a with | ⟨0, _⟩ => rfl | ⟨1, _⟩ => rfl | ⟨2, _⟩ => rfl)
  have hc : idx_main_v21 (idx_main_v23 (ix3 m k c)) = ix2 k c :=
    funext fun a => Fin.ext (by match a with | ⟨0, _⟩ => rfl | ⟨1, _⟩ => rfl)
  simp only [hl, hr, hs, hc, v17_at]
  show (∑ n : Fin 2048, _ * _) - (Ideal.ofBits .f32 0x00000000#32 + ∑ n : Fin 2048, _) * _ = _
  rw [Ideal.ofBits_zero_f32, zero_add]
  rfl

end Cert.ReferenceIdeal.RefValue

end
-- ==== Proof.Pieces.lean ====
/-
  What each kind of grid point leaves in the two running sums the kernel carries from point to point — the
  assignment-weighted sum of the rows (64 × 32 × 64) and the assignment mass (64 × 32) — and in the output block, as
  the body's arithmetic applied to the blocks it loads. Three kinds of point: the first of a sequence tile (both sums are
  set to zero, then grow by the tile's contribution: the zero is read back before it is added to), a middle one (the sums
  grow), the last (the sums grow and the descriptor block is computed from the finished sums, read back after their
  stores). At any float instance: only loads, stores and which value each store writes matter here.
-/
import proofs.«157888_j53979148976680_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- A block stored or loaded whole starts at the origin. -/
theorem hz3 : (![0, 0, 0] : Fin 3 → Nat) = fun _ => 0 := funext fun a => by fin_cases a <;> rfl
theorem hz2 : (![0, 0] : Fin 2 → Nat) = fun _ => 0 := funext fun a => by fin_cases a <;> rfl

theorem hz1 : (![0] : Fin 1 → Nat) = fun _ => 0 := funext fun a => by fin_cases a <;> rfl

/-! ## A middle point of a sequence tile: both running sums grow by the tile's contribution -/

/-- The weighted-sum scratch after a middle point: what it held, plus the tile's assignment-weighted sum. -/
theorem mid_sumV (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : ¬cond0_0 i) (hc1 : ¬cond0_1 i)
    (x0 : Vec F S64x256x64 .f32) (x1 : Vec F S32x64 .f32) (x2 : Vec F S32 .f32) (x3 : Vec F S32x64 .f32) (xs0 : Vec F S64x32x64 .f32) (xs1 : Vec F S64x32 .f32) :
    sout0_B_0 c i arg2 harg2 arg3 harg3 arg4 harg4 arg5 harg5 arg6 harg6 arg7 harg7 arg8 harg8 hc0 hc1 x0 x1 x2 x3 xs0 xs1 = k0_pay7 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1]

/-- The assignment-mass scratch after a middle point: what it held, plus the tile's assignment mass. -/
theorem mid_sumA (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : ¬cond0_0 i) (hc1 : ¬cond0_1 i)
    (x0 : Vec F S64x256x64 .f32) (x1 : Vec F S32x64 .f32) (x2 : Vec F S32 .f32) (x3 : Vec F S32x64 .f32) (xs0 : Vec F S64x32x64 .f32) (xs1 : Vec F S64x32 .f32) :
    sout0_B_1 c i arg2 harg2 arg3 harg3 arg4 harg4 arg5 harg5 arg6 harg6 arg7 harg7 arg8 harg8 hc0 hc1 x0 x1 x2 x3 xs0 xs1 = k0_pay1 (k0_pay6 x0 x1 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1]

/-! ## The last point of a sequence tile: the sums grow once more and the descriptor block is stored -/

theorem last_sumV (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : ¬cond0_0 i) (hc1 : cond0_1 i)
    (x0 : Vec F S64x256x64 .f32) (x1 : Vec F S32x64 .f32) (x2 : Vec F S32 .f32) (x3 : Vec F S32x64 .f32) (xs0 : Vec F S64x32x64 .f32) (xs1 : Vec F S64x32 .f32) :
    sout0_C_0 c i arg2 harg2 arg3 harg3 arg4 harg4 arg5 harg5 arg6 harg6 arg7 harg7 arg8 harg8 hc0 hc1 x0 x1 x2 x3 xs0 xs1 = k0_pay7 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1]

theorem last_sumA (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : ¬cond0_0 i) (hc1 : cond0_1 i)
    (x0 : Vec F S64x256x64 .f32) (x1 : Vec F S32x64 .f32) (x2 : Vec F S32 .f32) (x3 : Vec F S32x64 .f32) (xs0 : Vec F S64x32x64 .f32) (xs1 : Vec F S64x32 .f32) :
    sout0_C_1 c i arg2 harg2 arg3 harg3 arg4 harg4 arg5 harg5 arg6 harg6 arg7 harg7 arg8 harg8 hc0 hc1 x0 x1 x2 x3 xs0 xs1 = k0_pay1 (k0_pay6 x0 x1 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1]

/-- The descriptor block stored at a tile's last point: the finished weighted sum less the finished assignment mass
    times the centroids. -/
theorem last_out (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : ¬cond0_0 i) (hc1 : cond0_1 i)
    (x0 : Vec F S64x256x64 .f32) (x1 : Vec F S32x64 .f32) (x2 : Vec F S32 .f32) (x3 : Vec F S32x64 .f32) (xs0 : Vec F S64x32x64 .f32) (xs1 : Vec F S64x32 .f32) :
    out0_C_4 c i arg2 harg2 arg3 harg3 arg4 harg4 arg5 harg5 arg6 harg6 arg7 harg7 arg8 harg8 hc0 hc1 x0 x1 x2 x3 xs0 xs1 = k0_pay2 x3 (k0_pay7 x0 x1 x2 xs0) (k0_pay1 (k0_pay6 x0 x1 x2) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1, View.readCov_unit_zero (S := S64x32x64) _ hz3, View.readCov_unit_zero (S := S64x32) _ hz2]

/-! ## The first point of a sequence tile: both sums restart from zero -/

theorem first_sumV (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : cond0_0 i) (hc1 : ¬cond0_1 i)
    (x0 : Vec F S64x256x64 .f32) (x1 : Vec F S32x64 .f32) (x2 : Vec F S32 .f32) (x3 : Vec F S32x64 .f32) :
    sout0_A_0 c i arg2 harg2 arg3 harg3 arg4 harg4 arg5 harg5 arg6 harg6 arg7 harg7 arg8 harg8 hc0 hc1 x0 x1 x2 x3 = k0_pay7 x0 x1 x2 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x32x64) hz3, View.readCov_unit_zero (S := S64x32x64) _ hz3]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1]

theorem first_sumA (c : Dev nD) (i : grid0.Coords) (arg2 : Memref sig .tc .vmem S64x256x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S64x32x64 .f32) (harg6 : arg6.IsWhole) (arg7 : Memref sig .tc .vmem S64x32x64 .f32) (harg7 : arg7.IsWhole) (arg8 : Memref sig .tc .vmem S64x32 .f32) (harg8 : arg8.IsWhole) (hc0 : cond0_0 i) (hc1 : ¬cond0_1 i)
    (x0 : Vec F S64x256x64 .f32) (x1 : Vec F S32x64 .f32) (x2 : Vec F S32 .f32) (x3 : Vec F S32x64 .f32) :
    sout0_A_1 c i arg2 harg2 arg3 harg3 arg4 harg4 arg5 harg5 arg6 harg6 arg7 harg7 arg8 harg8 hc0 hc1 x0 x1 x2 x3 = k0_pay1 (k0_pay6 x0 x1 x2) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x32) hz2, View.readCov_unit_zero (S := S64x32) _ hz2]
  simp only [View.readAt_eq_ld, harg2.read_unread, harg3.read_unread, harg4.read_unread, harg5.read_unread, harg6.read_unread, harg7.read_unread, harg8.read_unread, View.ld_unit_zero (S := S64x256x64) hz3, View.ld_unit_zero (S := S64x32x64) hz3, View.ld_unit_zero (S := S32x64) hz2, View.ld_unit_zero (S := S64x32) hz2, View.ld_unit_zero (S := S32) hz1]

end Cert.KernelIdeal.Pieces

end
-- ==== Proof.Arrays.lean ====
/-
  The four arrays the kernel region finds — the sequence array (the host's reshape of the first argument to
  256 sequences × 2048 positions × 64 channels), the projection `W`, the bias and the centroids —, the descriptor
  array they determine, and the statement the induction over the grid points hands to the read of the result
  array: at the last point of a sequence tile the output block holds that tile's descriptors.
-/
import proofs.«157888_j53979148976680_1_alg».proof.Proof.Gen.KernelIdeal.Frame
import proofs.«157888_j53979148976680_1_alg».proof.Proof.Spec

noncomputable section

namespace Cert.KernelIdeal.Arrays

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The sequence array as the region finds it. -/
abbrev seq (c : Dev nD) : S256x2048x64.Idx → EReal := V m c main_v0
/-- The projection matrix. -/
abbrev wts (c : Dev nD) : S32x64.Idx → EReal := V m c main_arg1
/-- The bias. -/
abbrev bias (c : Dev nD) : S32.Idx → EReal := V m c main_arg2
/-- The centroids. -/
abbrev cents (c : Dev nD) : S32x64.Idx → EReal := V m c main_arg3

/-- The descriptor array of those four. -/
def descr (c : Dev nD) : S256x32x64.Idx → EReal := Cert.Vlad.vlad (seq m c) (wts m c) (bias m c) (cents m c)

/-- At the last point of a sequence tile (point numbers 7, 15, 23, 31) the output block holds the tile's descriptors. -/
def LastPoint (c : Dev nD) : Prop :=
  ∀ (t : Fin cfg0.N), t.val % 8 = 7 → ∀ (p : Fin 64) (k : Fin 32) (e : Fin 64),
    ((outsAt0 m c t.val t.isLt).1 : S64x32x64.Idx → EReal) (ix3 p k e) = descr m c (ix3 (Cert.Vlad.rowIx t.val p) k e)

end Cert.KernelIdeal.Arrays

end
-- ==== Proof.Blocks.lean ====
/-
  What a grid point's input blocks are, read off the arrays the region finds.

  Point number `t` of the 4 × 8 grid fetches, of the sequence array, the tile of sequences `64·(t / 8) … + 63` and
  positions `256·(t % 8) … + 255`, all 64 channels; of the projection, the bias and the centroids it fetches the
  whole array at every point. A block's entry at a coordinate inside the block is the array's entry at
  (block index × block extent + that coordinate) on every axis.
-/
import proofs.«157888_j53979148976680_1_alg».proof.Proof.Arrays
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Arrays

variable (m : (ℓ : Loc nD τ sig) → Buf (Elt Ideal) ℓ)

/-- The sequence window's block index at point `t`: (t / 8, t % 8, 0). -/
theorem idx_seq : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
/-- The projection's, the bias's and the centroids' block index never moves. -/
theorem idx_wts : ∀ t : Fin cfg0.N, win0_1.index t 0 = 0 ∧ win0_1.index t 1 = 0 :=
  (by decide +kernel : ∀ t : Fin grid0.N, win0_1.index t 0 = 0 ∧ win0_1.index t 1 = 0)
theorem idx_bias : ∀ t : Fin cfg0.N, win0_2.index t 0 = 0 :=
  (by decide +kernel : ∀ t : Fin grid0.N, win0_2.index t 0 = 0)
theorem idx_cents : ∀ t : Fin cfg0.N, win0_3.index t 0 = 0 ∧ win0_3.index t 1 = 0 :=
  (by decide +kernel : ∀ t : Fin grid0.N, win0_3.index t 0 = 0 ∧ win0_3.index t 1 = 0)

theorem lt32 (t : Fin cfg0.N) : t.val < 32 := lt_of_lt_of_eq t.isLt (show cfg0.N = 32 from N_0)

/-- The sequence tile at point `t`, entry (p, q, e): sequence `64·(t / 8) + p`, position `256·(t % 8) + q`, channel `e`. -/
theorem seq_block (c : Dev nD) (t : Fin cfg0.N) (p : Fin 64) (q : Fin 256) (e : Fin 64) :
    (iblk m c 0 t : S64x256x64.Idx → EReal) (ix3 p q e)
      = seq m c (ix3 (Cert.Vlad.rowIx t.val p) (Cert.Vlad.colIx t.val q) e) := by
  unfold iblk
  rw [View.read_apply]
  show V m c main_v0 _ = V m c main_v0 _
  congr 1
  funext a
  apply Fin.ext
  have hp := p.isLt; have hq := q.isLt; have ht := lt32 t
  match a with
  | ⟨0, _⟩ => show win0_0.index t 0 * 64 + 1 * p.val = (Cert.Vlad.rowIx t.val p).val
              rw [(idx_seq t).1, Cert.Vlad.rowIx_val ht]; omega
  | ⟨1, _⟩ => show win0_0.index t 1 * 256 + 1 * q.val = (Cert.Vlad.colIx t.val q).val
              rw [(idx_seq t).2.1, Cert.Vlad.colIx_val]; omega
  | ⟨2, _⟩ => show win0_0.index t 2 * 64 + 1 * e.val = e.val
              rw [(idx_seq t).2.2]; omega

/-- The projection's block is the whole projection, at every point. -/
theorem wts_block (c : Dev nD) (t : Fin cfg0.N) : (iblk m c 1 t : S32x64.Idx → EReal) = wts m c := by
  funext j
  unfold iblk
  rw [View.read_apply]
  show V m c main_arg1 _ = V m c main_arg1 j
  congr 1
  funext a
  apply Fin.ext
  match a with
  | ⟨0, _⟩ => show win0_1.index t 0 * 32 + 1 * (j 0).val = (j 0).val; rw [(idx_wts t).1]; omega
  | ⟨1, _⟩ => show win0_1.index t 1 * 64 + 1 * (j 1).val = (j 1).val; rw [(idx_wts t).2]; omega

/-- The bias's block is the whole bias. -/
theorem bias_block (c : Dev nD) (t : Fin cfg0.N) : (iblk m c 2 t : S32.Idx → EReal) = bias m c := by
  funext j
  unfold iblk
  rw [View.read_apply]
  show V m c main_arg2 _ = V m c main_arg2 j
  congr 1
  funext a
  apply Fin.ext
  match a with
  | ⟨0, _⟩ => show win0_2.index t 0 * 32 + 1 * (j 0).val = (j 0).val; rw [idx_bias t]; omega

/-- The centroids' block is the whole centroid array. -/
theorem cents_block (c : Dev nD) (t : Fin cfg0.N) : (iblk m c 3 t : S32x64.Idx → EReal) = cents m c := by
  funext j
  unfold iblk
  rw [View.read_apply]
  show V m c main_arg3 _ = V m c main_arg3 j
  congr 1
  funext a
  apply Fin.ext
  match a with
  | ⟨0, _⟩ => show win0_3.index t 0 * 32 + 1 * (j 0).val = (j 0).val; rw [(idx_cents t).1]; omega
  | ⟨1, _⟩ => show win0_3.index t 1 * 64 + 1 * (j 1).val = (j 1).val; rw [(idx_cents t).2]; omega

end Cert.KernelIdeal.Blocks

end
-- ==== Proof.Sums.lean ====
/-
  Sums over the 2048 positions of a sequence, cut into the 8 tiles of 256 the grid visits in order.

  A position is addressed by a natural number reduced into range (`pos`), so that "the first `256·j` positions" is a
  `Finset.range` and growing it by one tile is splitting a range: in any additive commutative monoid — here the extended
  reals, where addition is associative and commutative and nothing more is asked —
  `∑_{s < 256·(j+1)} f(pos s) = ∑_{s < 256·j} f(pos s) + ∑_{s < 256} f(pos (256·j + s))`,
  a tile's own sum `∑_{q : Fin 256} f(colIx n q)` is the last summand with `j = n % 8`, and after eight tiles the range is
  all 2048 positions.
-/
import proofs.«157888_j53979148976680_1_alg».proof.Proof.Spec
import Mathlib.Algebra.BigOperators.Fin

noncomputable section

open scoped BigOperators

namespace Cert.Vlad

variable {M : Type*} [AddCommMonoid M]

/-- Position number `s`, reduced into range. -/
def pos (s : ℕ) : Fin 2048 := ⟨s % 2048, Nat.mod_lt _ (by decide)⟩

theorem pos_val (n : Fin 2048) : pos n.val = n := Fin.ext (Nat.mod_eq_of_lt n.isLt)

/-- Position `q` of the tile point `n` works on is position number `256·(n % 8) + q`. -/
theorem colIx_eq_pos (n : ℕ) (q : Fin 256) : colIx n q = pos (256 * (n % 8) + q.val) := rfl

/-- All 2048 positions, by number. -/
theorem sum_positions (f : Fin 2048 → M) : ∑ n : Fin 2048, f n = ∑ s ∈ Finset.range 2048, f (pos s) := by
  rw [← Fin.sum_univ_eq_sum_range (fun s => f (pos s)) 2048]
  exact Finset.sum_congr rfl fun n _ => by rw [pos_val]

/-- One tile's positions, by number. -/
theorem sum_tile (f : Fin 2048 → M) (n : ℕ) :
    ∑ q : Fin 256, f (colIx n q) = ∑ s ∈ Finset.range 256, f (pos (256 * (n % 8) + s)) := by
  rw [← Fin.sum_univ_eq_sum_range (fun s => f (pos (256 * (n % 8) + s))) 256]
  exact Finset.sum_congr rfl fun q _ => by rw [colIx_eq_pos]

/-- The first `j + 1` tiles are the first `j` and tile `j`. -/
theorem sum_grow (f : Fin 2048 → M) (j : ℕ) :
    ∑ s ∈ Finset.range (256 * (j + 1)), f (pos s)
      = ∑ s ∈ Finset.range (256 * j), f (pos s) + ∑ s ∈ Finset.range 256, f (pos (256 * j + s)) := by
  rw [show 256 * (j + 1) = 256 * j + 256 from by ring, Finset.sum_range_add]

/-- At a tile's first point (`n % 8 = 0`) the tile's own sum is the sum over the first 256 positions. -/
theorem sum_first (f : Fin 2048 → M) (n : ℕ) (h : n % 8 = 0) :
    ∑ q : Fin 256, f (colIx n q) = ∑ s ∈ Finset.range (256 * (n % 8 + 1)), f (pos s) := by
  rw [sum_tile, h]
  simp only [Nat.mul_zero, Nat.zero_add, Nat.mul_one]

/-- At a later point of a tile, what the points before summed plus the tile's own sum is the sum up to this tile. -/
theorem sum_next (f : Fin 2048 → M) (n : ℕ) (h : (n + 1) % 8 ≠ 0) :
    ∑ s ∈ Finset.range (256 * (n % 8 + 1)), f (pos s) + ∑ q : Fin 256, f (colIx (n + 1) q)
      = ∑ s ∈ Finset.range (256 * ((n + 1) % 8 + 1)), f (pos s) := by
  have e : (n + 1) % 8 = n % 8 + 1 := by omega
  rw [sum_tile, sum_grow f ((n + 1) % 8), e]

/-- At a tile's last point (`n % 8 = 7`) the sum up to this tile is the sum over all positions. -/
theorem sum_last (f : Fin 2048 → M) (n : ℕ) (h : n % 8 = 7) :
    ∑ s ∈ Finset.range (256 * (n % 8 + 1)), f (pos s) = ∑ N : Fin 2048, f N := by
  rw [sum_positions, h]

/-- Within a sequence tile the sequence a point works on does not change. -/
theorem rowIx_succ (n : ℕ) (h : (n + 1) % 8 ≠ 0) (p : Fin 64) : rowIx (n + 1) p = rowIx n p := by
  have e : (n + 1) / 8 = n / 8 := by omega
  apply Fin.ext
  show (64 * ((n + 1) / 8) + p.val) % 256 = (64 * (n / 8) + p.val) % 256
  rw [e]

end Cert.Vlad

end
-- ==== Proof.Payload.lean ====
/-
  The kernel body's arithmetic, read at an index, over the extended reals.

  Each payload of the body is a chain of layout operations (reshapes, a transpose, broadcasts), two block products,
  three reductions along one axis and pointwise arithmetic. Read at the index `(p, q, k)` of the tile the soft
  assignment is the softmax of the row `(p, q)`'s 32 logits; at `(p, k, e)` the descriptor accumulator gains
  `∑_q a(p,q,k) · x(p,q,e)`; at `(p, k)` the mass accumulator gains `∑_q a(p,q,k)`; and the output is the descriptor
  accumulator less the mass times the centroid.
-/
import proofs.«157888_j53979148976680_1_alg».proof.Proof.Gen.KernelIdeal.Skeleton
import proofs.«157888_j53979148976680_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The mass accumulator: a sum over the 256 positions of the tile -/

/-- The mass accumulator at `(p, k)` gains the sum over the tile's positions `q` of the assignment at `(p, q, k)`. -/
theorem accS_at (a : FVec Ideal S64x256x32 .f32) (acc : Vec Ideal S64x32 .f32) (p : Fin 64) (k : Fin 32) :
    k0_pay1 (F := Ideal) a acc (ix2 p k) = acc (ix2 p k) + ∑ q : Fin 256, a (ix3 p q k) := by
  unfold k0_pay1
  rw [shapeCast_self]
  refine congrArg (acc (ix2 p k) + ·) ?_
  refine (Ideal.multiReduction_add_single a _ _ _ _ (ix2 p k)).trans ?_
  refine Finset.sum_congr rfl fun q _ => congrArg a (funext fun c => Fin.ext ?_)
  match c with
  | ⟨0, _⟩ => rfl
  | ⟨1, _⟩ => rfl
  | ⟨2, _⟩ => rfl

/-! ## The output: the descriptor accumulator less the mass times the centroid -/

/-- A `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- The output at `(p, k, e)`: the descriptor accumulator less the mass of cluster `k` times the centroid's channel `e`. -/
theorem out_at (cent : Vec Ideal S32x64 .f32) (accV : Vec Ideal S64x32x64 .f32) (accS : Vec Ideal S64x32 .f32)
    (p : Fin 64) (k : Fin 32) (e : Fin 64) :
    k0_pay2 (F := Ideal) cent accV accS (ix3 p k e) = accV (ix3 p k e) - accS (ix2 p k) * cent (ix2 k e) := by
  unfold k0_pay2
  show accV (ix3 p k e) - _ * _ = _
  rw [broadcastTo_ab1_abc_apply, shapeCast_ab_ab1_apply, broadcastTo_1bc_abc_apply, shapeCast_ab_1ab_apply]

/-! ## The two accumulators' initial values -/

/-- The descriptor accumulator starts at zero. -/
theorem zeroV_at (i : S64x32x64.Idx) : k0_pay3 (F := Ideal) i = 0 := by
  unfold k0_pay3
  rw [shapeCast_self]
  exact Ideal.ofBits_zero_f32

/-- The mass accumulator starts at zero. -/
theorem zeroS_at (i : S64x32.Idx) : k0_pay4 (F := Ideal) i = 0 := by
  unfold k0_pay4
  rw [shapeCast_self]
  exact Ideal.ofBits_zero_f32

/-! ## The first block product: rows of the tile against the cluster weights

The dot record contracts the left operand's axis 1 with the right operand's axis 0; the four lemmas below read its
operand indices on each axis. -/

theorem lhsW_0 (i : S16384x32.Idx) (q : dot_S16384x64_S64x32_S16384x32_1_0_0_1_n_n.contr.Idx) :
    (dot_S16384x64_S64x32_S16384x32_1_0_0_1_n_n.lhsIdx i q 0).val = (i 0).val := by
  unfold DotDims.lhsIdx
  rw [dif_neg (show ¬(0 : Fin S16384x64.rank) ∈ dot_S16384x64_S64x32_S16384x32_1_0_0_1_n_n.lhsBatch by decide), dif_pos (show (0 : Fin S16384x64.rank) ∈ dot_S16384x64_S64x32_S16384x32_1_0_0_1_n_n.lhsNonContracting by decide)]
  rfl
theorem lhsW_1 (i : S16384x32.Idx) (q : dot_S16384x64_S64x32_S16384x32_1_0_0_1_n_n.contr.Idx) :
    (dot_S16384x64_S64x32_S16384x32_1_0_0_1_n_n.lhsIdx i q 1).val = (q ⟨0, by decide⟩).val :=
  dot_S16384x64_S64x32_S16384x32_1_0_0_1_n_n.lhsIdx_val_of_single rfl i q
theorem rhsW_0 (i : S16384x32.Idx) (q : dot_S16384x64_S64x32_S16384x32_1_0_0_1_n_n.contr.Idx) :
    (dot_S16384x64_S64x32_S16384x32_1_0_0_1_n_n.rhsIdx i q 0).val = (q ⟨0, by decide⟩).val :=
  dot_S16384x64_S64x32_S16384x32_1_0_0_1_n_n.rhsIdx_val_of_single rfl i q
theorem rhsW_1 (i : S16384x32.Idx) (q : dot_S16384x64_S64x32_S16384x32_1_0_0_1_n_n.contr.Idx) :
    (dot_S16384x64_S64x32_S16384x32_1_0_0_1_n_n.rhsIdx i q 1).val = (i 1).val := by
  unfold DotDims.rhsIdx
  rw [dif_neg (show ¬(1 : Fin S64x32.rank) ∈ dot_S16384x64_S64x32_S16384x32_1_0_0_1_n_n.rhsBatch by decide), dif_pos (show (1 : Fin S64x32.rank) ∈ dot_S16384x64_S64x32_S16384x32_1_0_0_1_n_n.rhsNonContracting by decide)]
  rfl

/-- The product into the zero accumulator at `(r, k)`: `∑_c A(r, c) · B(c, k)`. -/
theorem mmW_apply (A : FVec Ideal S16384x64 .bf16) (B : FVec Ideal S64x32 .bf16) (r : Fin 16384) (k : Fin 32) :
    matmul dot_S16384x64_S64x32_S16384x32_1_0_0_1_n_n none A B (constant (F := Ideal) S16384x32 .f32 0x00000000#32) (ix2 r k)
      = ∑ c : Fin 64, A (ix2 r c) * B (ix2 c k) := by
  simp only [matmul]
  rw [Ideal.matmul_constant_zero_apply, ← Equiv.sum_comp (contrEquiv1 dot_S16384x64_S64x32_S16384x32_1_0_0_1_n_n 64 rfl rfl).symm]
  refine Finset.sum_congr rfl fun c _ => ?_
  have hk := contrEquiv1_symm_val dot_S16384x64_S64x32_S16384x32_1_0_0_1_n_n 64 rfl rfl c
  have el : dot_S16384x64_S64x32_S16384x32_1_0_0_1_n_n.lhsIdx (ix2 r k) ((contrEquiv1 dot_S16384x64_S64x32_S16384x32_1_0_0_1_n_n 64 rfl rfl).symm c) = ix2 r c := funext fun a => Fin.ext (by
    match a with
    | ⟨0, _⟩ => exact lhsW_0 _ _
    | ⟨1, _⟩ => exact (lhsW_1 _ _).trans hk)
  have er : dot_S16384x64_S64x32_S16384x32_1_0_0_1_n_n.rhsIdx (ix2 r k) ((contrEquiv1 dot_S16384x64_S64x32_S16384x32_1_0_0_1_n_n 64 rfl rfl).symm c) = ix2 c k := funext fun a => Fin.ext (by
    match a with
    | ⟨0, _⟩ => exact (rhsW_0 _ _).trans hk
    | ⟨1, _⟩ => exact rhsW_1 _ _)
  rw [el, er]

/-! ## The logits of the tile's rows -/

/-- The tile's logits as the body computes them: the tile flattened to 16384 rows, times the transposed weights, plus the
bias row, folded back to `[64, 256, 32]`. -/
def logits (x0 : Vec Ideal S64x256x64 .f32) (x1 : Vec Ideal S32x64 .f32) (x2 : Vec Ideal S32 .f32) : FVec Ideal S64x256x32 .f32 :=
  shapeCast S64x256x32
    (addf
      (matmul dot_S16384x64_S64x32_S16384x32_1_0_0_1_n_n none
        (truncf .bf16 (shapeCast S16384x64 (k0_pay5 (F := Ideal) x0) shapeCasts_S64x256x64_S16384x64) bitsLt_bf16_f32)
        (transpose S64x32 [1, 0] (truncf .bf16 x1 bitsLt_bf16_f32) transposes_S32x64_p1_0_S64x32)
        (constant S16384x32 .f32 0x00000000#32))
      (broadcastTo S16384x32 (shapeCast S1x32 x2 shapeCasts_S32_S1x32) broadcasts_S1x32_S16384x32))
    shapeCasts_S16384x32_S64x256x32

/-- At `(p, q, k)` the logit of row `(p, q)` of the tile against cluster `k`. -/
theorem logits_at (x0 : Vec Ideal S64x256x64 .f32) (x1 : Vec Ideal S32x64 .f32) (x2 : Vec Ideal S32 .f32)
    (p : Fin 64) (q : Fin 256) (k : Fin 32) :
    logits x0 x1 x2 (ix3 p q k) = Cert.Vlad.logit x1 x2 (fun c => x0 (ix3 p q c)) k := by
  have hr : 256 * p.val + q.val < 16384 := by have := p.isLt; have := q.isLt; omega
  unfold logits
  refine (shapeCast_apply _ shapeCasts_S16384x32_S64x256x32 (ix3 p q k) (ix2 (⟨256 * p.val + q.val, hr⟩ : Fin 16384) k) (by
    rw [Shape.rowMajor_val_two, Shape.rowMajor_val_three]
    show (256 * p.val + q.val) * 32 + k.val = (p.val * 256 + q.val) * 32 + k.val
    omega)).trans ?_
  rw [addf_apply, mmW_apply, broadcastTo_1b_ab_apply, shapeCast_a_1a_apply]
  unfold Cert.Vlad.logit
  refine congrArg (· + x2 (ix1 k)) (Finset.sum_congr rfl fun c _ => ?_)
  rw [truncf_apply, transpose_ix2_apply, truncf_apply]
  refine congrArg (· * x1 (ix2 k c)) ?_
  refine (shapeCast_apply _ shapeCasts_S64x256x64_S16384x64 (ix2 (⟨256 * p.val + q.val, hr⟩ : Fin 16384) c) (ix3 p q c) (by
    rw [Shape.rowMajor_val_two, Shape.rowMajor_val_three]
    show (p.val * 256 + q.val) * 64 + c.val = (256 * p.val + q.val) * 64 + c.val
    omega)).trans ?_
  unfold k0_pay5
  rw [shapeCast_self]

/-! ## The softmax over the 32 clusters -/

/-- Inserting `k` on the last axis over `(p, q)` gives `(p, q, k)`. -/
theorem lift2_eq (p : Fin 64) (q : Fin 256) (k : Fin 32) :
    reduces_S64x256x32_S64x256.lift (ix2 p q) k = ix3 p q k :=
  funext fun c => Fin.ext (by
    match c with
    | ⟨0, _⟩ => rfl
    | ⟨1, _⟩ => rfl
    | ⟨2, _⟩ => rfl)

/-- The rows' maxima, broadcast back over the clusters. -/
def rowMaxB (l : FVec Ideal S64x256x32 .f32) : FVec Ideal S64x256x32 .f32 :=
  broadcastTo S64x256x32
    (shapeCast S64x256x1
      (maximumf (broadcast S64x256 (Scalar.ofBits (F := Ideal) .f32 0xFF800000#32))
        (multiReduction .maximumf [2] S64x256 l 0xFF800000#32 reduces_S64x256x32_S64x256 (.inl rfl) rfl))
      shapeCasts_S64x256_S64x256x1)
    broadcasts_S64x256x1_S64x256x32

/-- The exponentials of the logits less their row's maximum. -/
def expB (l : FVec Ideal S64x256x32 .f32) : FVec Ideal S64x256x32 .f32 := exp (subf l (rowMaxB l))

/-- The softmax as the body computes it from an array of logits. -/
def softOf (l : FVec Ideal S64x256x32 .f32) : FVec Ideal S64x256x32 .f32 :=
  divf (expB l)
    (broadcastTo S64x256x32
      (shapeCast S64x256x1
        (multiReduction .add [2] S64x256 (expB l) 0x00000000#32 reduces_S64x256x32_S64x256 (.inl rfl) rfl)
        shapeCasts_S64x256_S64x256x1)
      broadcasts_S64x256x1_S64x256x32)

/-- The assignment payload is the softmax of the logits. -/
theorem pay6_eq (x0 : Vec Ideal S64x256x64 .f32) (x1 : Vec Ideal S32x64 .f32) (x2 : Vec Ideal S32 .f32) :
    k0_pay6 (F := Ideal) x0 x1 x2 = softOf (logits x0 x1 x2) := rfl

/-- At `(p, q, k)` the broadcast maximum is the maximum of row `(p, q)`. -/
theorem rowMaxB_at (l : FVec Ideal S64x256x32 .f32) (p : Fin 64) (q : Fin 256) (k : Fin 32) :
    rowMaxB l (ix3 p q k) = Cert.Vlad.rowMax (fun k' => l (ix3 p q k')) := by
  unfold rowMaxB
  rw [broadcastTo_ab1_abc_apply, shapeCast_ab_ab1_apply, maximumf_apply, broadcast_apply]
  unfold Cert.Vlad.rowMax
  refine congrArg (max Cert.Vlad.negInf) ?_
  refine (Ideal.multiReduction_maximumf_single l _ _ _ _ (ix2 p q)).trans ?_
  exact congrArg (Finset.univ.fold max Cert.Vlad.negInf) (funext fun k' => congrArg l (lift2_eq p q k'))

/-- At `(p, q, k)` the exponential of the logit less its row's maximum. -/
theorem expB_at (l : FVec Ideal S64x256x32 .f32) (p : Fin 64) (q : Fin 256) (k : Fin 32) :
    expB l (ix3 p q k) = Ideal.exp (l (ix3 p q k) - Cert.Vlad.rowMax (fun k' => l (ix3 p q k'))) := by
  show Ideal.exp (l (ix3 p q k) - rowMaxB l (ix3 p q k)) = _
  rw [rowMaxB_at]

/-- At `(p, q, k)` the softmax of row `(p, q)`'s logits at `k`. -/
theorem softOf_at (l : FVec Ideal S64x256x32 .f32) (p : Fin 64) (q : Fin 256) (k : Fin 32) :
    softOf l (ix3 p q k) = Cert.Vlad.soft (fun k' => l (ix3 p q k')) k := by
  unfold softOf
  rw [divf_apply, broadcastTo_ab1_abc_apply, shapeCast_ab_ab1_apply, expB_at]
  unfold Cert.Vlad.soft
  refine congrArg (Ideal.div _) ?_
  refine (Ideal.multiReduction_add_single (expB l) _ _ _ _ (ix2 p q)).trans ?_
  refine Finset.sum_congr rfl fun k' _ => ?_
  exact (congrArg (expB l) (lift2_eq p q k')).trans (expB_at l p q k')

/-- The assignment payload at `(p, q, k)`: the soft assignment of the tile's row `(p, q)` to cluster `k`. -/
theorem assign_at (x0 : Vec Ideal S64x256x64 .f32) (x1 : Vec Ideal S32x64 .f32) (x2 : Vec Ideal S32 .f32)
    (p : Fin 64) (q : Fin 256) (k : Fin 32) :
    k0_pay6 (F := Ideal) x0 x1 x2 (ix3 p q k) = Cert.Vlad.assign x1 x2 (fun c => x0 (ix3 p q c)) k := by
  rw [pay6_eq, softOf_at]
  unfold Cert.Vlad.assign
  exact congrArg (fun l => Cert.Vlad.soft l k) (funext fun k' => logits_at x0 x1 x2 p q k')

/-! ## The second block product: assignments against the tile, batched over the 64 sequences

The dot record has batch axis 0 on both sides and contracts axis 1 (the 256 positions) of both. -/

theorem lhsV_0 (i : S64x32x64.Idx) (q : dot_S64x256x32_S64x256x64_S64x32x64_1_1_2_2_0_0.contr.Idx) :
    (dot_S64x256x32_S64x256x64_S64x32x64_1_1_2_2_0_0.lhsIdx i q 0).val = (i 0).val := by
  unfold DotDims.lhsIdx
  rw [dif_pos (show (0 : Fin S64x256x32.rank) ∈ dot_S64x256x32_S64x256x64_S64x32x64_1_1_2_2_0_0.lhsBatch by decide)]
  rfl
theorem lhsV_1 (i : S64x32x64.Idx) (q : dot_S64x256x32_S64x256x64_S64x32x64_1_1_2_2_0_0.contr.Idx) :
    (dot_S64x256x32_S64x256x64_S64x32x64_1_1_2_2_0_0.lhsIdx i q 1).val = (q ⟨0, by decide⟩).val :=
  dot_S64x256x32_S64x256x64_S64x32x64_1_1_2_2_0_0.lhsIdx_val_of_single rfl i q
theorem lhsV_2 (i : S64x32x64.Idx) (q : dot_S64x256x32_S64x256x64_S64x32x64_1_1_2_2_0_0.contr.Idx) :
    (dot_S64x256x32_S64x256x64_S64x32x64_1_1_2_2_0_0.lhsIdx i q 2).val = (i 1).val := by
  unfold DotDims.lhsIdx
  rw [dif_neg (show ¬(2 : Fin S64x256x32.rank) ∈ dot_S64x256x32_S64x256x64_S64x32x64_1_1_2_2_0_0.lhsBatch by decide), dif_pos (show (2 : Fin S64x256x32.rank) ∈ dot_S64x256x32_S64x256x64_S64x32x64_1_1_2_2_0_0.lhsNonContracting by decide)]
  rfl
theorem rhsV_0 (i : S64x32x64.Idx) (q : dot_S64x256x32_S64x256x64_S64x32x64_1_1_2_2_0_0.contr.Idx) :
    (dot_S64x256x32_S64x256x64_S64x32x64_1_1_2_2_0_0.rhsIdx i q 0).val = (i 0).val := by
  unfold DotDims.rhsIdx
  rw [dif_pos (show (0 : Fin S64x256x64.rank) ∈ dot_S64x256x32_S64x256x64_S64x32x64_1_1_2_2_0_0.rhsBatch by decide)]
  rfl
theorem rhsV_1 (i : S64x32x64.Idx) (q : dot_S64x256x32_S64x256x64_S64x32x64_1_1_2_2_0_0.contr.Idx) :
    (dot_S64x256x32_S64x256x64_S64x32x64_1_1_2_2_0_0.rhsIdx i q 1).val = (q ⟨0, by decide⟩).val :=
  dot_S64x256x32_S64x256x64_S64x32x64_1_1_2_2_0_0.rhsIdx_val_of_single rfl i q
theorem rhsV_2 (i : S64x32x64.Idx) (q : dot_S64x256x32_S64x256x64_S64x32x64_1_1_2_2_0_0.contr.Idx) :
    (dot_S64x256x32_S64x256x64_S64x32x64_1_1_2_2_0_0.rhsIdx i q 2).val = (i 2).val := by
  unfold DotDims.rhsIdx
  rw [dif_neg (show ¬(2 : Fin S64x256x64.rank) ∈ dot_S64x256x32_S64x256x64_S64x32x64_1_1_2_2_0_0.rhsBatch by decide), dif_pos (show (2 : Fin S64x256x64.rank) ∈ dot_S64x256x32_S64x256x64_S64x32x64_1_1_2_2_0_0.rhsNonContracting by decide)]
  rfl

/-- The batched product into the zero accumulator at `(p, k, e)`: `∑_q A(p, q, k) · B(p, q, e)`. -/
theorem mmV_apply (A : FVec Ideal S64x256x32 .bf16) (B : FVec Ideal S64x256x64 .bf16) (p : Fin 64) (k : Fin 32) (e : Fin 64) :
    matmul dot_S64x256x32_S64x256x64_S64x32x64_1_1_2_2_0_0 none A B (constant (F := Ideal) S64x32x64 .f32 0x00000000#32) (ix3 p k e)
      = ∑ q : Fin 256, A (ix3 p q k) * B (ix3 p q e) := by
  simp only [matmul]
  rw [Ideal.matmul_constant_zero_apply, ← Equiv.sum_comp (contrEquiv1 dot_S64x256x32_S64x256x64_S64x32x64_1_1_2_2_0_0 256 rfl rfl).symm]
  refine Finset.sum_congr rfl fun q _ => ?_
  have hk := contrEquiv1_symm_val dot_S64x256x32_S64x256x64_S64x32x64_1_1_2_2_0_0 256 rfl rfl q
  have el : dot_S64x256x32_S64x256x64_S64x32x64_1_1_2_2_0_0.lhsIdx (ix3 p k e) ((contrEquiv1 dot_S64x256x32_S64x256x64_S64x32x64_1_1_2_2_0_0 256 rfl rfl).symm q) = ix3 p q k := funext fun a => Fin.ext (by
    match a with
    | ⟨0, _⟩ => exact lhsV_0 _ _
    | ⟨1, _⟩ => exact (lhsV_1 _ _).trans hk
    | ⟨2, _⟩ => exact lhsV_2 _ _)
  have er : dot_S64x256x32_S64x256x64_S64x32x64_1_1_2_2_0_0.rhsIdx (ix3 p k e) ((contrEquiv1 dot_S64x256x32_S64x256x64_S64x32x64_1_1_2_2_0_0 256 rfl rfl).symm q) = ix3 p q e := funext fun a => Fin.ext (by
    match a with
    | ⟨0, _⟩ => exact rhsV_0 _ _
    | ⟨1, _⟩ => exact (rhsV_1 _ _).trans hk
    | ⟨2, _⟩ => exact rhsV_2 _ _)
  rw [el, er]

/-- The descriptor accumulator at `(p, k, e)` gains the sum over the tile's positions `q` of the assignment of row `(p, q)`
to cluster `k` times the row's channel `e`. -/
theorem accV_at (x0 : Vec Ideal S64x256x64 .f32) (x1 : Vec Ideal S32x64 .f32) (x2 : Vec Ideal S32 .f32)
    (acc : Vec Ideal S64x32x64 .f32) (p : Fin 64) (k : Fin 32) (e : Fin 64) :
    k0_pay7 (F := Ideal) x0 x1 x2 acc (ix3 p k e)
      = acc (ix3 p k e) + ∑ q : Fin 256, Cert.Vlad.assign x1 x2 (fun c => x0 (ix3 p q c)) k * x0 (ix3 p q e) := by
  unfold k0_pay7
  rw [shapeCast_self, addf_apply, mmV_apply]
  refine congrArg (acc (ix3 p k e) + ·) (Finset.sum_congr rfl fun q _ => ?_)
  rw [truncf_apply, truncf_apply, assign_at]
  unfold k0_pay5
  rw [shapeCast_self]

end Cert.KernelIdeal.Payload

end
-- ==== Proof.Invariant.lean ====
/-
  The induction over the 32 grid points.

  The kernel keeps two running sums between points: for each of the 64 sequences of the current tile, each cluster `k`
  (and channel `e`), the assignment-weighted sum of the rows and the assignment mass, over the positions visited so far.
  A sequence tile is visited at 8 consecutive points, one per tile of 256 positions. The invariant after point number `n`:
  both sums hold exactly the terms of positions `0 … 256·(n % 8 + 1) − 1` of the sequences `64·(n / 8) + p`. It is
  established at a tile's first point (the sums restart from zero, and `0 + x = x`), kept at every later point (a range
  of positions grows by one tile: only associativity of the sum), and at a tile's last point the range is all 2048
  positions, so that the block stored there — weighted sum less mass times centroid — is the descriptor of the
  specification. Nothing here needs the inputs finite: the extended reals are an additive commutative monoid, and no
  product is distributed over a sum.
-/
import proofs.«157888_j53979148976680_1_alg».proof.Proof.Pieces
import proofs.«157888_j53979148976680_1_alg».proof.Proof.Blocks
import proofs.«157888_j53979148976680_1_alg».proof.Proof.Sums
import proofs.«157888_j53979148976680_1_alg».proof.Proof.Payload

set_option maxRecDepth 16384

noncomputable section

open scoped BigOperators

namespace Cert.KernelIdeal.Invariant

open Idealize.ShloMosaic Idealize.ShloMosaic.TcCoe Idealize.SL.Sem Idealize.ShloMosaic.ValueIdx
open Cert.KernelIdeal Cert.KernelIdeal.Gen Cert.KernelIdeal.Arrays Cert.KernelIdeal.Blocks
open Cert.Vlad (rowIx colIx pos)

variable (m : (ℓ : Loc nD τ sig) → Buf (Elt Ideal) ℓ)

/-- One position's term of the assignment-weighted sum of sequence `M` at cluster `k`, channel `e`. -/
def fV (c : Dev nD) (M : Fin 256) (k : Fin 32) (e : Fin 64) (N : Fin 2048) : EReal :=
  Cert.Vlad.assign (wts m c) (bias m c) (Cert.Vlad.rowOf (seq m c) M N) k * seq m c (ix3 M N e)
/-- One position's term of the assignment mass of sequence `M` at cluster `k`. -/
def fA (c : Dev nD) (M : Fin 256) (k : Fin 32) (N : Fin 2048) : EReal :=
  Cert.Vlad.assign (wts m c) (bias m c) (Cert.Vlad.rowOf (seq m c) M N) k

/-- A row of the sequence tile at point `t` is a row of the sequence array. -/
theorem tile_row (c : Dev nD) (t : Fin cfg0.N) (p : Fin 64) (q : Fin 256) :
    (fun e => (iblk m c 0 t : S64x256x64.Idx → EReal) (ix3 p q e))
      = Cert.Vlad.rowOf (seq m c) (rowIx t.val p) (colIx t.val q) :=
  funext fun e => seq_block m c t p q e

/-- The tile's assignments are the array's. -/
theorem tile_assign (c : Dev nD) (t : Fin cfg0.N) (p : Fin 64) (q : Fin 256) (k : Fin 32) :
    Cert.Vlad.assign (iblk m c 1 t : S32x64.Idx → EReal) (iblk m c 2 t : S32.Idx → EReal)
        (fun e => (iblk m c 0 t : S64x256x64.Idx → EReal) (ix3 p q e)) k
      = fA m c (rowIx t.val p) k (colIx t.val q) := by
  rw [tile_row, wts_block, bias_block]; rfl

/-- The weighted sum after the body at point `t`, from what it held before: plus the tile's 256 terms. -/
theorem tileV (c : Dev nD) (t : Fin cfg0.N) (acc : Vec Ideal S64x32x64 .f32) (p : Fin 64) (k : Fin 32) (e : Fin 64) :
    (k0_pay7 (F := Ideal) (iblk m c 0 t) (iblk m c 1 t) (iblk m c 2 t) acc : S64x32x64.Idx → EReal) (ix3 p k e)
      = (acc : S64x32x64.Idx → EReal) (ix3 p k e) + ∑ q : Fin 256, fV m c (rowIx t.val p) k e (colIx t.val q) := by
  refine (Cert.KernelIdeal.Payload.accV_at (iblk m c 0 t) (iblk m c 1 t) (iblk m c 2 t) acc p k e).trans ?_
  refine congrArg (_ + ·) (Finset.sum_congr rfl fun q _ => ?_)
  rw [tile_assign m c t p q k, seq_block m c t p q e]; rfl

/-- The assignment mass after the body at point `t`: plus the tile's 256 assignments. -/
theorem tileA (c : Dev nD) (t : Fin cfg0.N) (acc : Vec Ideal S64x32 .f32) (p : Fin 64) (k : Fin 32) :
    (k0_pay1 (F := Ideal) (k0_pay6 (F := Ideal) (iblk m c 0 t) (iblk m c 1 t) (iblk m c 2 t)) acc : S64x32.Idx → EReal) (ix2 p k)
      = (acc : S64x32.Idx → EReal) (ix2 p k) + ∑ q : Fin 256, fA m c (rowIx t.val p) k (colIx t.val q) := by
  refine (Cert.KernelIdeal.Payload.accS_at (k0_pay6 (F := Ideal) (iblk m c 0 t) (iblk m c 1 t) (iblk m c 2 t)) acc p k).trans ?_
  refine congrArg (_ + ·) (Finset.sum_congr rfl fun q _ => ?_)
  exact (Cert.KernelIdeal.Payload.assign_at (iblk m c 0 t) (iblk m c 1 t) (iblk m c 2 t) p q k).trans (tile_assign m c t p q k)

/-- THE INVARIANT after point number `n`: each running sum holds the terms of the first `256·(n % 8 + 1)` positions of
    the sequences point `n` works on. -/
def InvAt (c : Dev nD) (n : ℕ) (hn : n < cfg0.N) : Prop :=
  (∀ (p : Fin 64) (k : Fin 32) (e : Fin 64), ((outsAt0 m c n hn).2.1 : S64x32x64.Idx → EReal) (ix3 p k e)
      = ∑ s ∈ Finset.range (256 * (n % 8 + 1)), fV m c (rowIx n p) k e (pos s))
  ∧ (∀ (p : Fin 64) (k : Fin 32), ((outsAt0 m c n hn).2.2 : S64x32.Idx → EReal) (ix2 p k)
      = ∑ s ∈ Finset.range (256 * (n % 8 + 1)), fA m c (rowIx n p) k (pos s))

/-- A tile's first point establishes it: the sums restart from zero. -/
theorem inv_first (c : Dev nD) (t : Fin cfg0.N) (h0 : t.val % 8 = 0) : InvAt m c t.val t.isLt := by
  have h1 : ¬t.val % 8 = 7 := by omega
  unfold InvAt
  rw [outsAt0_A m c t h0 h1]
  dsimp only
  refine ⟨fun p k e => ?_, fun p k => ?_⟩
  · refine (congrFun (Cert.KernelIdeal.Pieces.first_sumV (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix3 p k e)).trans ?_
    rw [tileV m c t _ p k e, Cert.KernelIdeal.Payload.zeroV_at, zero_add]
    exact Cert.Vlad.sum_first (fV m c (rowIx t.val p) k e) t.val h0
  · refine (congrFun (Cert.KernelIdeal.Pieces.first_sumA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p k)).trans ?_
    rw [tileA m c t _ p k, Cert.KernelIdeal.Payload.zeroS_at, zero_add]
    exact Cert.Vlad.sum_first (fA m c (rowIx t.val p) k) t.val h0

/-- At a later point of a tile the grown weighted sum holds the terms up to and including this tile's. -/
theorem grownV (c : Dev nD) (n : ℕ) (hn : n + 1 < cfg0.N) (h0 : (n + 1) % 8 ≠ 0)
    (ih : InvAt m c n (Nat.lt_of_succ_lt hn)) (p : Fin 64) (k : Fin 32) (e : Fin 64) :
    (k0_pay7 (F := Ideal) (iblk m c 0 ⟨n + 1, hn⟩) (iblk m c 1 ⟨n + 1, hn⟩) (iblk m c 2 ⟨n + 1, hn⟩) (outsAt0 m c n (Nat.lt_of_succ_lt hn)).2.1 : S64x32x64.Idx → EReal) (ix3 p k e)
      = ∑ s ∈ Finset.range (256 * ((n + 1) % 8 + 1)), fV m c (rowIx (n + 1) p) k e (pos s) := by
  refine (tileV m c ⟨n + 1, hn⟩ _ p k e).trans ?_
  refine (congrArg (· + _) (ih.1 p k e)).trans ?_
  show _ + ∑ q : Fin 256, fV m c (rowIx (n + 1) p) k e (colIx (n + 1) q) = _
  rw [Cert.Vlad.rowIx_succ n h0 p]
  exact Cert.Vlad.sum_next (fV m c (rowIx n p) k e) n h0

/-- Likewise the grown assignment mass. -/
theorem grownA (c : Dev nD) (n : ℕ) (hn : n + 1 < cfg0.N) (h0 : (n + 1) % 8 ≠ 0)
    (ih : InvAt m c n (Nat.lt_of_succ_lt hn)) (p : Fin 64) (k : Fin 32) :
    (k0_pay1 (F := Ideal) (k0_pay6 (F := Ideal) (iblk m c 0 ⟨n + 1, hn⟩) (iblk m c 1 ⟨n + 1, hn⟩) (iblk m c 2 ⟨n + 1, hn⟩)) (outsAt0 m c n (Nat.lt_of_succ_lt hn)).2.2 : S64x32.Idx → EReal) (ix2 p k)
      = ∑ s ∈ Finset.range (256 * ((n + 1) % 8 + 1)), fA m c (rowIx (n + 1) p) k (pos s) := by
  refine (tileA m c ⟨n + 1, hn⟩ _ p k).trans ?_
  refine (congrArg (· + _) (ih.2 p k)).trans ?_
  show _ + ∑ q : Fin 256, fA m c (rowIx (n + 1) p) k (colIx (n + 1) q) = _
  rw [Cert.Vlad.rowIx_succ n h0 p]
  exact Cert.Vlad.sum_next (fA m c (rowIx n p) k) n h0

/-- A middle point keeps the invariant: the sums grow by the tile's terms. -/
theorem inv_mid (c : Dev nD) (n : ℕ) (hn : n + 1 < cfg0.N) (h0 : (n + 1) % 8 ≠ 0) (h1 : (n + 1) % 8 ≠ 7)
    (ih : InvAt m c n (Nat.lt_of_succ_lt hn)) : InvAt m c (n + 1) hn := by
  unfold InvAt
  rw [show outsAt0 m c (n + 1) hn = _ from outsAt0_B m c ⟨n + 1, hn⟩ h0 h1]
  dsimp only
  refine ⟨fun p k e => ?_, fun p k => ?_⟩
  · exact (congrFun (Cert.KernelIdeal.Pieces.mid_sumV (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2) (ix3 p k e)).trans (grownV m c n hn h0 ih p k e)
  · exact (congrFun (Cert.KernelIdeal.Pieces.mid_sumA (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2) (ix2 p k)).trans (grownA m c n hn h0 ih p k)

/-- So does a tile's last point. -/
theorem inv_last (c : Dev nD) (n : ℕ) (hn : n + 1 < cfg0.N) (h0 : (n + 1) % 8 ≠ 0) (h1 : (n + 1) % 8 = 7)
    (ih : InvAt m c n (Nat.lt_of_succ_lt hn)) : InvAt m c (n + 1) hn := by
  unfold InvAt
  rw [show outsAt0 m c (n + 1) hn = _ from outsAt0_C m c ⟨n + 1, hn⟩ h0 h1]
  dsimp only
  refine ⟨fun p k e => ?_, fun p k => ?_⟩
  · exact (congrFun (Cert.KernelIdeal.Pieces.last_sumV (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2) (ix3 p k e)).trans (grownV m c n hn h0 ih p k e)
  · exact (congrFun (Cert.KernelIdeal.Pieces.last_sumA (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2) (ix2 p k)).trans (grownA m c n hn h0 ih p k)

/-- And the block it stores is the tile's descriptors: by then the sums run over all 2048 positions. -/
theorem last_descr (c : Dev nD) (n : ℕ) (hn : n + 1 < cfg0.N) (h0 : (n + 1) % 8 ≠ 0) (h1 : (n + 1) % 8 = 7)
    (ih : InvAt m c n (Nat.lt_of_succ_lt hn)) (p : Fin 64) (k : Fin 32) (e : Fin 64) :
    ((outsAt0 m c (n + 1) hn).1 : S64x32x64.Idx → EReal) (ix3 p k e) = descr m c (ix3 (rowIx (n + 1) p) k e) := by
  rw [show outsAt0 m c (n + 1) hn = _ from outsAt0_C m c ⟨n + 1, hn⟩ h0 h1]
  dsimp only
  refine (congrFun (Cert.KernelIdeal.Pieces.last_out (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2) (ix3 p k e)).trans ?_
  refine (Cert.KernelIdeal.Payload.out_at (iblk m c 3 ⟨n + 1, hn⟩) (k0_pay7 (F := Ideal) (iblk m c 0 ⟨n + 1, hn⟩) (iblk m c 1 ⟨n + 1, hn⟩) (iblk m c 2 ⟨n + 1, hn⟩) (outsAt0 m c n (Nat.lt_of_succ_lt hn)).2.1) (k0_pay1 (F := Ideal) (k0_pay6 (F := Ideal) (iblk m c 0 ⟨n + 1, hn⟩) (iblk m c 1 ⟨n + 1, hn⟩) (iblk m c 2 ⟨n + 1, hn⟩)) (outsAt0 m c n (Nat.lt_of_succ_lt hn)).2.2) p k e).trans ?_
  have eV := (grownV m c n hn h0 ih p k e).trans (Cert.Vlad.sum_last (fV m c (rowIx (n + 1) p) k e) (n + 1) h1)
  have eA := (grownA m c n hn h0 ih p k).trans (Cert.Vlad.sum_last (fA m c (rowIx (n + 1) p) k) (n + 1) h1)
  have eC : (iblk m c 3 ⟨n + 1, hn⟩ : S32x64.Idx → EReal) (ix2 k e) = cents m c (ix2 k e) := congrFun (cents_block m c ⟨n + 1, hn⟩) (ix2 k e)
  refine (congrArg₂ (· - ·) eV (congrArg₂ (· * ·) eA eC)).trans ?_
  rfl

/-- The invariant holds after every point, by induction on the point number. -/
theorem inv (c : Dev nD) : ∀ (n : ℕ) (hn : n < cfg0.N), InvAt m c n hn
  | 0, hn => inv_first m c ⟨0, hn⟩ (Nat.zero_mod 8)
  | n + 1, hn => by
    by_cases h0 : (n + 1) % 8 = 0
    · exact inv_first m c ⟨n + 1, hn⟩ h0
    · by_cases h1 : (n + 1) % 8 = 7
      · exact inv_last m c n hn h0 h1 (inv c n _)
      · exact inv_mid m c n hn h0 h1 (inv c n _)

/-- At the last point of every sequence tile the output block holds the tile's descriptors. -/
theorem lastPoint (c : Dev nD) : LastPoint m c := by
  intro t ht p k e
  obtain ⟨n, hn⟩ := t
  cases n with
  | zero => exact absurd (show (0 : ℕ) % 8 = 7 from ht) (by decide)
  | succ n => exact last_descr m c n hn (by have : (n + 1) % 8 = 7 := ht; omega) ht (inv m c n _) p k e

end Cert.KernelIdeal.Invariant

end
-- ==== Proof.Final.lean ====
/-
  From the tiles to the arrays. The induction over the grid points ends in a statement about the output BLOCK at the
  last point of each sequence tile; here that statement is carried to the result ARRAY and then through the program's
  run. The output's block at point number t is rows 64·(t / 8) … 64·(t / 8) + 63 of the 256 × 32 × 64 descriptor
  array, whole in the other two axes, and it is written back exactly at the points t ≡ 7 (mod 8); the four points
  7, 15, 23, 31 therefore tile the array, row r lying in the block of point 8·(r / 64) + 7. So the array ends holding
  the descriptors; the reshape after the region regroups its 256 sequences as 8 × 32, and the reshape before the region
  is how the sequence array arises from the first argument. The other three arrays are the arguments themselves.
-/
import proofs.«157888_j53979148976680_1_alg».proof.Proof.Arrays
import Idealize.ShloMosaic.Lib.Pipeline.Value
import Idealize.ShloMosaic.Lib.StableHlo.Run
import Idealize.ShloMosaic.Lib.ValueIdx

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arrays

variable (m : (ℓ : Loc nD τ sig) → Buf (Elt Ideal) ℓ) (ρ : Dev nD → PrngReg)

/-- The output window's block index at point number `t`: the sequence tile `t / 8`, and block 0 of the other two
    axes (decided over the 32 points). -/
theorem outIndex : ∀ t : Fin cfg0.N, win0_4.index t 0 = t.val / 8 ∧ win0_4.index t 1 = 0 ∧ win0_4.index t 2 = 0 :=
  (by decide +kernel : ∀ t : Fin grid0.N, _)

/-- What a point that writes the output back writes: its block of the descriptor array. -/
theorem flushed_eq (c : Dev nD) (h : LastPoint m c) (t : Fin cfg0.N) (hf : (cfg0.win 4).flush t = true) :
    (dats m 0 c).flushed 4 t = ((cfg0.win 4).blk t).view.read (Elt Ideal) (descr m c) := by
  have ht : t.val % 8 = 7 := (flush0_4 t).mp hf
  have hN : t.val < 32 := lt_of_lt_of_eq t.isLt (show cfg0.N = 32 from N_0)
  obtain ⟨e0, e1, e2⟩ := outIndex t
  show (cfg0.win 4).cut (grid0.coords t) ((dats m 0 c).after 4 t) = _
  rw [after0_4]
  funext j
  have hj0 : (j 0).val < 64 := (j 0).isLt
  have hj1 : (j 1).val < 32 := (j 1).isLt
  have hj2 : (j 2).val < 64 := (j 2).isLt
  have hx : (cfg0.win 4).xinj (grid0.coords t) j = ix3 (⟨(j 0).val, hj0⟩ : Fin 64) (⟨(j 1).val, hj1⟩ : Fin 32) (⟨(j 2).val, hj2⟩ : Fin 64) := by
    funext a
    match a with
    | ⟨0, _⟩ => rfl
    | ⟨1, _⟩ => rfl
    | ⟨2, _⟩ => rfl
  have hy : ((cfg0.win 4).blk t).view.emb j = ix3 (Cert.Vlad.rowIx t.val ⟨(j 0).val, hj0⟩) (⟨(j 1).val, hj1⟩ : Fin 32) (⟨(j 2).val, hj2⟩ : Fin 64) := by
    funext a
    apply Fin.ext
    match a with
    | ⟨0, _⟩ =>
      show win0_4.index t (0 : Fin 3) * 64 + 1 * (j 0).val = (Cert.Vlad.rowIx t.val ⟨(j 0).val, hj0⟩).val
      rw [Cert.Vlad.rowIx_val hN, e0]; show _ = 64 * (t.val / 8) + (j 0).val; omega
    | ⟨1, _⟩ =>
      show win0_4.index t (1 : Fin 3) * 32 + 1 * (j 1).val = (j 1).val
      rw [e1]; omega
    | ⟨2, _⟩ =>
      show win0_4.index t (2 : Fin 3) * 64 + 1 * (j 2).val = (j 2).val
      rw [e2]; omega
  show ((outsAt0 m c t.val t.isLt).1 : S64x32x64.Idx → EReal) ((cfg0.win 4).xinj (grid0.coords t) j) = descr m c (((cfg0.win 4).blk t).view.emb j)
  rw [hx, hy]
  exact h t ht _ _ _

/-- An index of the array is in point `t`'s block iff each coordinate is in the block's range on its axis. -/
theorem mem_outBlock (t : Fin cfg0.N) (i : S256x32x64.Idx) :
    i ∈ ((cfg0.win 4).blk t).view.set ↔ ∀ a : Fin 3, win0_4.index t a * S64x32x64.size a ≤ (i a).val ∧ (i a).val < win0_4.index t a * S64x32x64.size a + S64x32x64.size a := by
  show i ∈ ((View.whole main_v1).slice (win0_4.rect t)).set ↔ _
  rw [View.set_slice_whole, Rect.mem_set_unit]
  exact Iff.rfl

/-- Every row of the array lies in the block of its sequence tile's last point, and that point writes the block back. -/
theorem rows_covered (i : S256x32x64.Idx) :
    ∃ t : Fin cfg0.N, (cfg0.win 4).flush t = true ∧ i ∈ ((cfg0.win 4).blk t).view.set := by
  have hi0 : (i 0).val < 256 := (i 0).isLt
  have hi1 : (i 1).val < 32 := (i 1).isLt
  have hi2 : (i 2).val < 64 := (i 2).isLt
  have hN : cfg0.N = 32 := N_0
  let t : Fin cfg0.N := ⟨8 * ((i 0).val / 64) + 7, by rw [hN]; omega⟩
  have htv : t.val = 8 * ((i 0).val / 64) + 7 := rfl
  obtain ⟨e0, e1, e2⟩ := outIndex t
  refine ⟨t, (flush0_4 t).mpr (by rw [htv]; omega), ?_⟩
  rw [mem_outBlock]
  intro a
  match a with
  | ⟨0, _⟩ =>
    show win0_4.index t (0 : Fin 3) * 64 ≤ (i 0).val ∧ (i 0).val < win0_4.index t (0 : Fin 3) * 64 + 64
    rw [e0, htv]; omega
  | ⟨1, _⟩ =>
    show win0_4.index t (1 : Fin 3) * 32 ≤ (i 1).val ∧ (i 1).val < win0_4.index t (1 : Fin 3) * 32 + 32
    rw [e1]; omega
  | ⟨2, _⟩ =>
    show win0_4.index t (2 : Fin 3) * 64 ≤ (i 2).val ∧ (i 2).val < win0_4.index t (2 : Fin 3) * 64 + 64
    rw [e2]; omega

/-- THE RESULT ARRAY of the region: after the last point it holds the descriptors. -/
theorem final (c : Dev nD) (h : LastPoint m c) : (dats m 0 c).arrAt 4 cfg0.N = descr m c :=
  (dats m 0 c).arrAt_eq_of_cover 4 (descr m c) (flushed_eq m c h) rows_covered

/-- The array the reshape after the region reads is the region's result array, which holds the descriptors; so the
    program's result is the descriptor array with its 256 sequences regrouped as 8 × 32. -/
theorem result_eq (c : Dev nD) (h : LastPoint m c) :
    Pipeline.afterTail₀ cfgs (dats m) 0 (V0 m) [hostOps1] c main_v2
      = shapeCast S8x32x32x64 (descr m c) Facts₀.shapeCasts_S256x32x64_S8x32x32x64 := by
  have e : Pipeline.withArrays (cfgs 0).spec c (V0 m c) (fun w => (dats m 0 c).arrAt w (cfgs 0).N) (Proc.devRef .tc main_v1)
      = descr m c :=
    (Pipeline.withArrays_arr spec0 launch0.win.arr_inj c _ _ 4).trans (final m c h)
  unfold Pipeline.afterTail₀
  show StableHlo.after hostOps1 _ (Proc.devRef .tc main_v2) = _
  after_results
  rw [e]
  rfl

/-- THE RUN of the program at the extended reals: every weakly fair execution ends with the result array at the
    regrouped descriptors of the arrays the region found, and the four arguments as launched. -/
theorem run (h : ∀ c, LastPoint m c) :
    θ_run defs (onTc (τ := τ) (main (F := Ideal))) ⟨m, fun _ => 0, ρ⟩ (fun r => ∀ c : Dev nD,
      r.2.mem ((c.tc : Thread nD τ).loc main_v2) = shapeCast S8x32x32x64 (descr m c) Facts₀.shapeCasts_S256x32x64_S8x32x32x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hp c =>
      ⟨((hp c).2 main_v2 (Pipeline.mem_restRefs_of main_v2 (by decide) (by decide))).trans (result_eq m c (h c)),
       ((hp c).2 main_arg0 (Pipeline.mem_restRefs_of main_arg0 (by decide) (by decide))).trans (W_main_arg0 m (dats m) c),
       ((hp c).1 1).trans (((dats m 0 c).arrAt_in 1 rfl _).trans ((A_eq m c 1).trans (V_main_arg1 m c))),
       ((hp c).1 2).trans (((dats m 0 c).arrAt_in 2 rfl _).trans ((A_eq m c 2).trans (V_main_arg2 m c))),
       ((hp c).1 3).trans (((dats m 0 c).arrAt_in 3 rfl _).trans ((A_eq m c 3).trans (V_main_arg3 m c)))⟩)
    (run_main m ρ)

/-- The sequence array is the first argument, its 8 × 32 leading axes merged (the reshape before the region). -/
theorem seq_eq (c : Dev nD) :
    seq m c = shapeCast S256x2048x64 (m ((c.tc : Thread nD τ).loc main_arg0)) Facts₀.shapeCasts_S8x32x2048x64_S256x2048x64 := by
  show StableHlo.after hostOps0 (fun b => m (c, b)) (Proc.devRef .tc main_v0) = _
  after_results
  rfl

/-- The projection matrix is the second argument. -/
theorem wts_eq (c : Dev nD) : wts m c = m ((c.tc : Thread nD τ).loc main_arg1) := V_main_arg1 m c
/-- The bias is the third argument. -/
theorem bias_eq (c : Dev nD) : bias m c = m ((c.tc : Thread nD τ).loc main_arg2) := V_main_arg2 m c
/-- The centroids are the fourth argument. -/
theorem cents_eq (c : Dev nD) : cents m c = m ((c.tc : Thread nD τ).loc main_arg3) := V_main_arg3 m c

end Cert.KernelIdeal.Final

end
-- ==== Proof.lean ====
/-
  The certificate's claims, assembled.

  Both programs compute, of a sequence array `r` (256 sequences × 2048 positions × 64 channels, the first argument with
  its two leading axes merged), a projection `W`, a bias `b` and centroids `cent`, the descriptor
  `v(m,k,c) = ∑ₙ a(m,n,k)·r(m,n,c) − (∑ₙ a(m,n,k))·cent(k,c)`, where `a(m,n,·)` is the softmax over the 32 clusters of
  the logits `⟨r(m,n,·), W(k,·)⟩ + b(k)` (Proof/Spec.lean), and return it with the 256 sequences regrouped as 8 × 32.

  The reference does so in one pass over whole arrays (Proof/Reference.lean reads its stages at an index; its product
  of the logits with the literal 1 is the identity). The kernel visits the array in 4 × 8 tiles of 64 sequences × 256
  positions, keeps the two sums over positions as running sums across the 8 position tiles of a sequence tile, and
  stores the descriptor block at the last of them (Proof/Pieces.lean: what each kind of point leaves; Proof/Payload.lean:
  the body's arithmetic at an index; Proof/Blocks.lean: where a point's blocks sit in the arrays; Proof/Sums.lean and
  Proof/Invariant.lean: the induction over the points; Proof/Final.lean: from the stored blocks to the result array and
  the program's run). At the extended reals a change of float format is the identity and a sum may be regrouped
  freely, which is all that separates the two: no finiteness of the inputs is used.

  The three frames are the programs' runs with the results forgotten; the idealized kernel is the kernel's own text
  read at the extended reals (nothing was rewritten), so `preserves` is trivial.
-/
import proofs.«157888_j53979148976680_1_alg».proof.Defs
import proofs.«157888_j53979148976680_1_alg».proof.Proof.Gen.Kernel
import proofs.«157888_j53979148976680_1_alg».proof.Proof.Gen.Kernel.Skeleton
import proofs.«157888_j53979148976680_1_alg».proof.Proof.Gen.Kernel.Launch
import proofs.«157888_j53979148976680_1_alg».proof.Proof.Gen.Kernel.Points
import proofs.«157888_j53979148976680_1_alg».proof.Proof.Gen.Kernel.Frame
import proofs.«157888_j53979148976680_1_alg».proof.Proof.Gen.KernelIdeal
import proofs.«157888_j53979148976680_1_alg».proof.Proof.Gen.KernelIdeal.Skeleton
import proofs.«157888_j53979148976680_1_alg».proof.Proof.Gen.KernelIdeal.Launch
import proofs.«157888_j53979148976680_1_alg».proof.Proof.Gen.KernelIdeal.Points
import proofs.«157888_j53979148976680_1_alg».proof.Proof.Gen.KernelIdeal.Frame
import proofs.«157888_j53979148976680_1_alg».proof.Proof.Gen.ReferenceIdeal
import proofs.«157888_j53979148976680_1_alg».proof.Proof.Gen.ReferenceIdeal.Run
import proofs.«157888_j53979148976680_1_alg».proof.Proof.Gen.ReferenceIdeal.Read
import proofs.«157888_j53979148976680_1_alg».proof.Proof.Gen.Pre_finite_inputs
import proofs.«157888_j53979148976680_1_alg».proof.Proof.Reference
import proofs.«157888_j53979148976680_1_alg».proof.Proof.Invariant
import proofs.«157888_j53979148976680_1_alg».proof.Proof.Final
import Idealize.ShloMosaic.Adequacy
import Idealize.ShloMosaic.Init

noncomputable section

namespace Cert.Proof

open Idealize.ShloMosaic Idealize.SL.Sem

/-- The kernel as printed runs to the end, faults nowhere and leaves its arguments as launched. -/
theorem frame_kernel : @Cert.frame_Kernel Cert.Kernel.Gen.facts Cert.Pre_finite_inputs.Gen.facts :=
  fun m ρ _ => Cert.Kernel.Gen.frame m ρ

/-- So does its reading at the extended reals. -/
theorem frame_kernelIdeal : @Cert.frame_KernelIdeal Cert.KernelIdeal.Gen.facts Cert.Pre_finite_inputs.Gen.facts :=
  fun m ρ _ => Cert.KernelIdeal.Gen.frame m ρ

/-- The reference is a straight line of host operations: its run, with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the four arguments both programs end with the regrouped descriptor array of those
    arguments: the kernel by the induction over its grid points, the reference by reading its stages. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => shapeCast Cert.KernelIdeal.S8x32x32x64 (Cert.KernelIdeal.Arrays.descr m c) Cert.KernelIdeal.Facts₀.shapeCasts_S256x32x64_S8x32x32x64,
    Cert.KernelIdeal.Final.run m ρ (fun c => Cert.KernelIdeal.Invariant.lastPoint m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  unfold Cert.ReferenceIdeal.Read.val_main_v26
  rw [Cert.ReferenceIdeal.RefValue.descriptor_eq, (hagree c).1, (hagree c).2.1, (hagree c).2.2.1, (hagree c).2.2.2]
  show _ = shapeCast Cert.KernelIdeal.S8x32x32x64 (Cert.KernelIdeal.Arrays.descr m c) Cert.KernelIdeal.Facts₀.shapeCasts_S256x32x64_S8x32x32x64
  unfold Cert.KernelIdeal.Arrays.descr
  rw [Cert.KernelIdeal.Final.seq_eq, Cert.KernelIdeal.Final.wts_eq, Cert.KernelIdeal.Final.bias_eq, Cert.KernelIdeal.Final.cents_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
